-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x64 : Shape := ⟨2, ![500000, 64]⟩
abbrev S2x500000 : Shape := ⟨2, ![2, 500000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S64 : Shape := ⟨1, ![64]⟩
abbrev S1x64 : Shape := ⟨2, ![1, 64]⟩
abbrev S_ : Shape := ⟨0, ![]⟩
abbrev S1x500000 : Shape := ⟨2, ![1, 500000]⟩
abbrev S500000 : Shape := ⟨1, ![500000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part3 {F : FTy → Type} [FloatOps F] (main_arg2 : IVec S2x500000 32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : IVec S1x500000 32 := (extractStridedSlice S1x500000 ![0, 0] · slices_S2x500000_S1x500000_0_0) main_arg2
  let main_v55 : IVec S500000 32 := shapeCast S500000 main_v54 shapeCasts_S1x500000_S500000
  let main_c_20 : IVec S_ 32 := constantI S_ 32 0#32
  let main_v56 : IVec S500000 32 := broadcastInDim S500000 ![] bcast_S_S500000 main_c_20
  let main_v57 : IVec S500000 1 := cmpi .sge main_v55 main_v56
  let main_v58 : IVec S1x500000 32 := (extractStridedSlice S1x500000 ![0, 0] · slices_S2x500000_S1x500000_0_0) main_arg2
  let main_v59 : IVec S500000 32 := shapeCast S500000 main_v58 shapeCasts_S1x500000_S500000
  let main_c_21 : IVec S_ 32 := constantI S_ 32 50000#32
  let main_v60 : IVec S500000 32 := broadcastInDim S500000 ![] bcast_S_S500000 main_c_21
  let main_v61 : IVec S500000 1 := cmpi .slt main_v59 main_v60
  let main_v62 : IVec S500000 1 := andi main_v57 main_v61
  let main_c_22 : IVec S_ 1 := constantI S_ 1 1#1
  let main_v63 : IVec S_ 1 := (fun x v => Host.reduce IntOp.andi x v reducesTo_S500000_S_d0 h_S_) main_v62 main_c_22
  let main_v64 : IVec S_ 1 := andi main_v53 main_v63
  main_v64

def fn_part2 {F : FTy → Type} [FloatOps F] (main_arg2 : IVec S2x500000 32) (main_arg9 : FVec F S128 .f32) (main_arg10 : FVec F S64x128 .f32) (main_arg11 : FVec F S64 .f32) (main_arg12 : FVec F S1x64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1x64 .f32 := Host.absf main_arg12
  let main_cst_18 : FVec F S_ .f32 := constant S_ .f32 0x7F800000#32
  let main_v50 : FVec F S1x64 .f32 := broadcastInDim S1x64 ![] bcast_S_S1x64 main_cst_18
  fn_part3 (F := F) main_arg2 main_v48 main_v49 main_v50

def fn_part1 {F : FTy → Type} [FloatOps F] (main_arg2 : IVec S2x500000 32) (main_arg6 : FVec F S128x64 .f32) (main_arg7 : FVec F S128 .f32) (main_arg8 : FVec F S128x128 .f32) (main_arg9 : FVec F S128 .f32) (main_arg10 : FVec F S64x128 .f32) (main_arg11 : FVec F S64 .f32) (main_arg12 : FVec F S1x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_arg12 main_v33

def fn {F : FTy → Type} [FloatOps F] (main_arg0 : FVec F S50000x128 .f32) (main_arg1 : FVec F S500000x64 .f32) (main_arg2 : IVec S2x500000 32) (main_arg3 : IVec S50000 32) (main_arg4 : FVec F S128x128 .f32) (main_arg5 : FVec F S128 .f32) (main_arg6 : FVec F S128x64 .f32) (main_arg7 : FVec F S128 .f32) (main_arg8 : FVec F S128x128 .f32) (main_arg9 : FVec F S128 .f32) (main_arg10 : FVec F S64x128 .f32) (main_arg11 : FVec F S64 .f32) (main_arg12 : FVec F S1x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_arg12 main_v13 main_v16
-- ==== Kernel.lean ====
abbrev S50000x128 : Shape := ⟨2, ![50000, 128]⟩
abbrev S500000x64 : Shape := ⟨2, ![500000, 64]⟩
abbrev S2x500000 : Shape := ⟨2, ![2, 500000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S64 : Shape := ⟨1, ![64]⟩
abbrev S1x64 : Shape := ⟨2, ![1, 64]⟩
abbrev S1x500000 : Shape := ⟨2, ![1, 500000]⟩
abbrev S500000 : Shape := ⟨1, ![500000]⟩
abbrev S2000x128 : Shape := ⟨2, ![2000, 128]⟩
abbrev S1x128 : Shape := ⟨2, ![1, 128]⟩
abbrev S500000x128 : Shape := ⟨2, ![500000, 128]⟩
abbrev S5000x64 : Shape := ⟨2, ![5000, 64]⟩
abbrev S5000x128 : Shape := ⟨2, ![5000, 128]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S50000x1 : Shape := ⟨2, ![50000, 1]⟩
abbrev S2000x1 : Shape := ⟨2, ![2000, 1]⟩
abbrev S2000x64 : Shape := ⟨2, ![2000, 64]⟩
abbrev S64x1 : Shape := ⟨2, ![64, 1]⟩
abbrev S256x1 : Shape := ⟨2, ![256, 1]⟩

abbrev nBuf : Space → Nat
  | .hbm => 82
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S500000x64, .f32⟩
  | .hbm, ⟨2, _⟩ => ⟨S2x500000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S1x64, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S50000x128, .f32⟩
  | .hbm, ⟨18, _⟩ => ⟨S500000x128, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S1, .i32⟩
  | .hbm, ⟨28, _⟩ => ⟨S_, .i32⟩
  | .hbm, ⟨29, _⟩ => ⟨S500000x1, .i32⟩
  | .hbm, ⟨30, _⟩ => ⟨S500000x1, .i1⟩
  | .hbm, ⟨31, _⟩ => ⟨S1x1, .i32⟩
  | .hbm, ⟨32, _⟩ => ⟨S500000x1, .i32⟩
  | .hbm, ⟨33, _⟩ => ⟨S500000x1, .i1⟩
  | .hbm, ⟨34, _⟩ => ⟨S500000x1, .i1⟩
  | .hbm, ⟨35, _⟩ => ⟨S_, .i1⟩
  | .hbm, ⟨36, _⟩ => ⟨S500000, .i1⟩
  | .hbm, ⟨37, _⟩ => ⟨S500000x128, .f32⟩
  | .hbm, ⟨38, _⟩ => ⟨S500000x128, .i1⟩
  | .hbm, ⟨39, _⟩ => ⟨S_, .f32⟩
  | .hbm, ⟨40, _⟩ => ⟨S500000x128, .f32⟩
  | .hbm, ⟨41, _⟩ => ⟨S500000x128, .f32⟩
  | .hbm, ⟨42, _⟩ => ⟨S500000x128, .f32⟩
  | .hbm, ⟨43, _⟩ => ⟨S_, .f32⟩
  | .hbm, ⟨44, _⟩ => ⟨S50000x128, .f32⟩
  | .hbm, ⟨45, _⟩ => ⟨S500000x1, .i32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S1, .i32⟩
  | .hbm, ⟨57, _⟩ => ⟨S_, .i32⟩
  | .hbm, ⟨58, _⟩ => ⟨S500000x1, .i32⟩
  | .hbm, ⟨59, _⟩ => ⟨S500000x1, .i1⟩
  | .hbm, ⟨60, _⟩ => ⟨S1x1, .i32⟩
  | .hbm, ⟨61, _⟩ => ⟨S500000x1, .i32⟩
  | .hbm, ⟨62, _⟩ => ⟨S500000x1, .i1⟩
  | .hbm, ⟨63, _⟩ => ⟨S500000x1, .i1⟩
  | .hbm, ⟨64, _⟩ => ⟨S_, .i1⟩
  | .hbm, ⟨65, _⟩ => ⟨S500000, .i1⟩
  | .hbm, ⟨66, _⟩ => ⟨S500000x128, .f32⟩
  | .hbm, ⟨67, _⟩ => ⟨S500000x128, .i1⟩
  | .hbm, ⟨68, _⟩ => ⟨S_, .f32⟩
  | .hbm, ⟨69, _⟩ => ⟨S500000x128, .f32⟩
  | .hbm, ⟨70, _⟩ => ⟨S500000x128, .f32⟩
  | .hbm, ⟨71, _⟩ => ⟨S500000x128, .f32⟩
  | .hbm, ⟨72, _⟩ => ⟨S_, .f32⟩
  | .hbm, ⟨73, _⟩ => ⟨S50000x128, .f32⟩
  | .hbm, ⟨74, _⟩ => ⟨S500000x1, .i32⟩
  | .hbm, ⟨75, _⟩ => ⟨S50000x128, .f32⟩
  | .hbm, ⟨76, _⟩ => ⟨S50000x128, .f32⟩
  | .hbm, ⟨77, _⟩ => ⟨S50000x1, .f32⟩
  | .hbm, ⟨78, _⟩ => ⟨S_, .f32⟩
  | .hbm, ⟨79, _⟩ => ⟨S256x1, .f32⟩
  | .hbm, ⟨80, _⟩ => ⟨S50000x1, .i32⟩
  | .hbm, ⟨81, _⟩ => ⟨S256x1, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S5000x64, .f32⟩
  | .local _ .vmem, ⟨7, _⟩ => ⟨S5000x64, .f32⟩
  | .local _ .vmem, ⟨8, _⟩ => ⟨S128x64, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S128, .f32⟩
  | .local _ .vmem, ⟨40, _⟩ => ⟨S64x128, .f32⟩
  | .local _ .vmem, ⟨41, _⟩ => ⟨S64, .f32⟩
  | .local _ .vmem, ⟨42, _⟩ => ⟨S1x64, .f32⟩
  | .local _ .vmem, ⟨43, _⟩ => ⟨S2000x1, .f32⟩
  | .local _ .vmem, ⟨44, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v12 : Ref sig .tc := ⟨.hbm, 70, rfl⟩
abbrev main_v13 : Ref sig .tc := ⟨.hbm, 71, rfl⟩
abbrev main_cst_0 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_1 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg4_0 : Ref sig .tc := ⟨.vmem, 41, rfl⟩
abbrev cc6_stg5_0 : Ref sig .tc := ⟨.vmem, 42, rfl⟩
abbrev cc6_stg6_0 : Ref sig .tc := ⟨.vmem, 43, rfl⟩
abbrev cc6_stg6_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem4_0 : DmaSem sig := 41
abbrev cc6_sem5_0 : DmaSem sig := 42
abbrev cc6_sem6_0 : DmaSem sig := 43
abbrev cc6_sem6_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x1 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S5000x64_S5000x64_0_0 : ∀ a, (![0, 0] : Fin 2 → Nat) a + S5000x64.size a ≤ S5000x64.size a
  h_S5000x64 : 0 < S5000x64.numel
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  shapeCasts_S5000x128_S5000x128 : S5000x128.ShapeCasts S5000x128
  bcast_S_S50000x128 : S_.BroadcastsInDim S50000x128 (![] : Fin 0 → Fin S50000x128.rank)
  shapeCasts_S2000x128_S2000x128 : S2000x128.ShapeCasts S2000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S1x64_S1x64_0_0 : ∀ a, (![0, 0] : Fin 2 → Nat) a + S1x64.size a ≤ S1x64.size a
  h_S1x64 : 0 < S1x64.numel
  transposes_S1x64_p1_0_S64x1 : S1x64.Transposes [1, 0] S64x1
  inb_S2000x1_S2000x1_0_0 : ∀ a, (![0, 0] : Fin 2 → Nat) a + S2000x1.size a ≤ S2000x1.size a
  h_S2000x1 : 0 < S2000x1.numel
  bcast_S_S256x1 : S_.BroadcastsInDim S256x1 (![] : Fin 0 → Fin S256x1.rank)
  bcast_S50000_S50000x1_0 : S50000.BroadcastsInDim S50000x1 (![0] : Fin 1 → Fin S50000x1.rank)
  dot_S2000x128_S128x128_S2000x128_1_0_0_1_n_n_wf : DotDims.WF S2000x128 S128x128 S2000x128 [1] [0] [0] [1] [] []
  dot_S5000x64_S64x128_S5000x128_1_0_0_1_n_n_wf : DotDims.WF S5000x64 S64x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  scatter_S256x1_S50000x1_S50000x1_1_0_0_1_wf : ScatterDims.WF S256x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S500000x64.size a
  hwx1_0 : ∀ i : grid1.Coords, EltTy.bits .f32 = 32 ∨ (Rect.block (s := S500000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S500000x128.size a
  hwx1_3 : ∀ i : grid1.Coords, EltTy.bits .f32 = 32 ∨ (Rect.block (s := S500000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S500000x128.size a
  hwx2_2 : ∀ i : grid2.Coords, EltTy.bits .f32 = 32 ∨ (Rect.block (s := S500000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .f32 = 32 ∨ (Rect.block (s := S500000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S500000x128.size a
  hwx4_1 : ∀ i : grid4.Coords, EltTy.bits .f32 = 32 ∨ (Rect.block (s := S500000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S500000x128.size a
  hwx4_2 : ∀ i : grid4.Coords, EltTy.bits .f32 = 32 ∨ (Rect.block (s := S500000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x128.size a ≤ S64x128.size a
  hwx6_3 : ∀ i : grid6.Coords, EltTy.bits .f32 = 32 ∨ (Rect.block (s := S64x128) S64x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x1.size a ≤ S50000x1.size a
  hwx6_6 : ∀ i : grid6.Coords, EltTy.bits .f32 = 32 ∨ (Rect.block (s := S50000x1) S2000x1.size (cc6_transform_6 i) (hinb6_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def scatter_S256x1_S50000x1_S50000x1_1_0_0_1 : ScatterDims S256x1 S50000x1 S50000x1 where
  updateWindowDims := [1]
  insertedWindowDims := [0]
  scatterDimsToOperandDims := [0]
  indexVectorDim := 1
  wf := scatter_S256x1_S50000x1_S50000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v4) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v12) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v11) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v17) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S64x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg12) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v18) S2000x1.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x128 : Shape := ⟨2, ![50000, 128]⟩
abbrev S500000x64 : Shape := ⟨2, ![500000, 64]⟩
abbrev S2x500000 : Shape := ⟨2, ![2, 500000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S64 : Shape := ⟨1, ![64]⟩
abbrev S1x64 : Shape := ⟨2, ![1, 64]⟩
abbrev S1x500000 : Shape := ⟨2, ![1, 500000]⟩
abbrev S500000 : Shape := ⟨1, ![500000]⟩
abbrev S1x128 : Shape := ⟨2, ![1, 128]⟩
abbrev S500000x128 : Shape := ⟨2, ![500000, 128]⟩
abbrev S_ : Shape := ⟨0, ![]⟩
abbrev S500000x1 : Shape := ⟨2, ![500000, 1]⟩
abbrev S50000x64 : Shape := ⟨2, ![50000, 64]⟩
abbrev S64x1 : Shape := ⟨2, ![64, 1]⟩
abbrev S50000x1 : Shape := ⟨2, ![50000, 1]⟩
abbrev S256x1 : Shape := ⟨2, ![256, 1]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000x64, .f32⟩
  | .hbm, ⟨2, _⟩ => ⟨S2x500000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S1x64, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S128x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S64x128, .f32⟩
  | .hbm, ⟨23, _⟩ => ⟨S500000x128, .f32⟩
  | .hbm, ⟨24, _⟩ => ⟨S1x128, .f32⟩
  | .hbm, ⟨25, _⟩ => ⟨S500000x128, .f32⟩
  | .hbm, ⟨26, _⟩ => ⟨S500000x128, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x128, .f32⟩
  | .hbm, ⟨36, _⟩ => ⟨S500000x128, .f32⟩
  | .hbm, ⟨37, _⟩ => ⟨S_, .f32⟩
  | .hbm, ⟨38, _⟩ => ⟨S50000x128, .f32⟩
  | .hbm, ⟨39, _⟩ => ⟨S500000x1, .i32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S500000, .i32⟩
  | .hbm, ⟨44, _⟩ => ⟨S500000, .i1⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S500000x1, .i32⟩
  | .hbm, ⟨50, _⟩ => ⟨S500000x128, .f32⟩
  | .hbm, ⟨51, _⟩ => ⟨S500000x128, .f32⟩
  | .hbm, ⟨52, _⟩ => ⟨S_, .f32⟩
  | .hbm, ⟨53, _⟩ => ⟨S50000x128, .f32⟩
  | .hbm, ⟨54, _⟩ => ⟨S500000x1, .i32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S128x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S128x64, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | .hbm, ⟨76, _⟩ => ⟨S64x1, .f32⟩
  | .hbm, ⟨77, _⟩ => ⟨S50000x1, .f32⟩
  | .hbm, ⟨78, _⟩ => ⟨S_, .f32⟩
  | .hbm, ⟨79, _⟩ => ⟨S256x1, .f32⟩
  | .hbm, ⟨80, _⟩ => ⟨S50000x1, .i32⟩
  | .hbm, ⟨81, _⟩ => ⟨S256x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_1 : Ref sig .tc := ⟨.hbm, 42, rfl⟩
abbrev main_v26 : Ref sig .tc := ⟨.hbm, 43, rfl⟩
abbrev main_v27 : Ref sig .tc := ⟨.hbm, 44, rfl⟩
abbrev main_c_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_cst : Ref sig .tc := ⟨.hbm, 65, rfl⟩
abbrev main_call1_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call2_cst : Ref sig .tc := ⟨.hbm, 73, rfl⟩
abbrev main_call2_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_4 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x64_S64x128_1_0 : S128x64.Transposes [1, 0] S64x128
  bcast_S1x128_S500000x128_0_1 : S1x128.BroadcastsInDim S500000x128 (![0, 1] : Fin 2 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S1x64_S64x1_1_0 : S1x64.Transposes [1, 0] S64x1
  bcast_S_S256x1 : S_.BroadcastsInDim S256x1 (![] : Fin 0 → Fin S256x1.rank)
  bcast_S50000_S50000x1_0 : S50000.BroadcastsInDim S50000x1 (![0] : Fin 1 → Fin S50000x1.rank)
  dot_S50000x128_S128x128_S50000x128_1_0_0_1_n_n_wf : DotDims.WF S50000x128 S128x128 S50000x128 [1] [0] [0] [1] [] []
  dot_S500000x64_S64x128_S500000x128_1_0_0_1_n_n_wf : DotDims.WF S500000x64 S64x128 S500000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []
  scatter_S256x1_S50000x1_S50000x1_1_0_0_1_wf : ScatterDims.WF S256x1 S50000x1 S50000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def scatter_S256x1_S50000x1_S50000x1_1_0_0_1 : ScatterDims S256x1 S50000x1 S50000x1 where
  updateWindowDims := [1]
  insertedWindowDims := [0]
  scatterDimsToOperandDims := [0]
  indexVectorDim := 1
  wf := scatter_S256x1_S50000x1_S50000x1_1_0_0_1_wf

class Facts : Prop extends Facts₀ where

variable [Facts]
-- ==== Proof.Stages.lean ====
/-
  The whole computation as a composition of stage functions on whole arrays, spelled with the
  reference program's own host operations: two linear embeddings (x · Wᵀ + b), two rounds of
  message passing (gather the source node's row, multiply by the edge embedding, sum the
  messages into their destination nodes, add to the node embedding), the three-layer
  perceptron with a rectifier before each layer, and the sum of node energies per graph.
-/
import proofs.«414585_j1666447311389_1_alg».proof.Proof.Gen.ReferenceIdeal

noncomputable section

namespace Cert.Stages

open Cert.ReferenceIdeal Cert.ReferenceIdeal.Facts₀ Cert.ReferenceIdeal.Facts Idealize.ShloMosaic Idealize.ShloMosaic.TcCoe

variable {F : FTy → Type} [FloatOps F]

/-- Row 0 of the edge list: the source node of every edge. -/
def srcOf (ei : IVec S2x500000 32) : IVec S500000 32 :=
  shapeCast S500000 (extractStridedSlice S1x500000 ![0, 0] ei slices_S2x500000_S1x500000_0_0) shapeCasts_S1x500000_S500000

/-- Row 1 of the edge list: the destination node of every edge. -/
def dstOf (ei : IVec S2x500000 32) : IVec S500000 32 :=
  shapeCast S500000 (extractStridedSlice S1x500000 ![1, 0] ei slices_S2x500000_S1x500000_1_0) shapeCasts_S1x500000_S500000

/-- Node embedding: x · Waᵀ + ba, row by row. -/
def lin0 (x : FVec F S50000x128 .f32) (w : FVec F S128x128 .f32) (b : FVec F S128 .f32) : FVec F S50000x128 .f32 :=
  addf (Host.dotGeneral dot_S50000x128_S128x128_S50000x128_1_0_0_1_n_n none x (transpose S128x128 [1, 0] w transposes_S128x128_S128x128_1_0))
    (broadcastInDim S50000x128 ![0, 1] bcast_S1x128_S50000x128_0_1 (broadcastInDim S1x128 ![1] bcast_S128_S1x128_1 b))

/-- Edge embedding: edge_attr · Wbᵀ + bb, row by row. -/
def lin1 (x : FVec F S500000x64 .f32) (w : FVec F S128x64 .f32) (b : FVec F S128 .f32) : FVec F S500000x128 .f32 :=
  addf (Host.dotGeneral dot_S500000x64_S64x128_S500000x128_1_0_0_1_n_n none x (transpose S64x128 [1, 0] w transposes_S128x64_S64x128_1_0))
    (broadcastInDim S500000x128 ![0, 1] bcast_S1x128_S500000x128_0_1 (broadcastInDim S1x128 ![1] bcast_S128_S1x128_1 b))

/-- A node index with a negative value counted from the end (index + 50000), as a column. -/
def wrapIdx (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 50000#32))) s)

/-- The source node's embedding row for every edge. -/
def gath (n : FVec F S50000x128 .f32) (s : IVec S500000 32) : FVec F S500000x128 .f32 :=
  Host.gather gather_S50000x128_S500000x1_S500000x128_1_0_n_n_0_1_1128 n (wrapIdx s)

/-- The messages summed into their destination nodes. -/
def agg (d : IVec S500000 32) (u : FVec F S500000x128 .f32) : FVec F S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 d) u

/-- The message of every edge: the gathered row times the edge embedding, entry by entry. -/
def emul (a b : FVec F S500000x128 .f32) : FVec F S500000x128 .f32 := mulf a b

/-- The residual update: entry by entry sum of two node arrays. -/
def nadd (a b : FVec F S50000x128 .f32) : FVec F S50000x128 .f32 := addf a b

/-- One round of message passing: n + Σ_{edges into a node} n[src] * e. -/
def layer (n : FVec F S50000x128 .f32) (e : FVec F S500000x128 .f32) (s d : IVec S500000 32) : FVec F S50000x128 .f32 :=
  nadd n (agg d (emul (gath n s) e))

/-- max(·, 0) on a 50000 × 128 array. -/
def relu128 (h : FVec F S50000x128 .f32) : FVec F S50000x128 .f32 :=
  maximumf h (broadcastInDim S50000x128 ![] bcast_S_S50000x128 (constant S_ .f32 0x00000000#32))

/-- max(·, 0) on a 50000 × 64 array. -/
def relu64 (h : FVec F S50000x64 .f32) : FVec F S50000x64 .f32 :=
  maximumf h (broadcastInDim S50000x64 ![] bcast_S_S50000x64 (constant S_ .f32 0x00000000#32))

/-- The energy perceptron: relu, then (· W1ᵀ + b1, relu), (· W2ᵀ + b2, relu), · W3ᵀ. -/
def mlp (h : FVec F S50000x128 .f32) (w1 : FVec F S128x128 .f32) (b1 : FVec F S128 .f32) (w2 : FVec F S64x128 .f32) (b2 : FVec F S64 .f32)
    (w3 : FVec F S1x64 .f32) : FVec F S50000x1 .f32 :=
  Host.dotGeneral dot_S50000x64_S64x1_S50000x1_1_0_0_1_n_n none
    (relu64 (addf (Host.dotGeneral dot_S50000x128_S128x64_S50000x64_1_0_0_1_n_n none
        (relu128 (addf (Host.dotGeneral dot_S50000x128_S128x128_S50000x128_1_0_0_1_n_n none (relu128 h)
            (transpose S128x128 [1, 0] w1 transposes_S128x128_S128x128_1_0))
          (broadcastInDim S50000x128 ![0, 1] bcast_S1x128_S50000x128_0_1 (broadcastInDim S1x128 ![1] bcast_S128_S1x128_1 b1))))
        (transpose S128x64 [1, 0] w2 transposes_S64x128_S128x64_1_0))
      (broadcastInDim S50000x64 ![0, 1] bcast_S1x64_S50000x64_0_1 (broadcastInDim S1x64 ![1] bcast_S64_S1x64_1 b2))))
    (transpose S64x1 [1, 0] w3 transposes_S1x64_S64x1_1_0)

/-- Node energies summed per graph. -/
def pool (g : IVec S50000 32) (u : FVec F S50000x1 .f32) : FVec F S256x1 .f32 :=
  Host.scatterAdd scatter_S256x1_S50000x1_S50000x1_1_0_0_1
    (broadcastInDim S256x1 ![] bcast_S_S256x1 (constant S_ .f32 0x00000000#32))
    (broadcastInDim S50000x1 ![0] bcast_S50000_S50000x1_0 g) u

/-- The whole network as one function of the thirteen arguments. -/
def total (x : FVec F S50000x128 .f32) (ea : FVec F S500000x64 .f32) (ei : IVec S2x500000 32) (g : IVec S50000 32)
    (wa : FVec F S128x128 .f32) (ba : FVec F S128 .f32) (wb : FVec F S128x64 .f32) (bb : FVec F S128 .f32)
    (w1 : FVec F S128x128 .f32) (b1 : FVec F S128 .f32) (w2 : FVec F S64x128 .f32) (b2 : FVec F S64 .f32) (w3 : FVec F S1x64 .f32) :
    FVec F S256x1 .f32 :=
  pool g (mlp (layer (layer (lin0 x wa ba) (lin1 ea wb bb) (srcOf ei) (dstOf ei)) (lin1 ea wb bb) (srcOf ei) (dstOf ei)) w1 b1 w2 b2 w3)

end Cert.Stages

end
-- ==== Proof.Take.lean ====
/-
  Gathering a node's row for every edge. The kernel's program takes rows with out-of-range indices
  replaced by a fill value; the reference gathers with the index clamped. When every source index is
  a node index (0 ≤ s < 50000) the range test passes at every edge, nothing is filled, and the two
  gathers read the same row.
-/
import proofs.«414585_j1666447311389_1_alg».proof.Proof.Gen.KernelIdeal.Frame
import proofs.«414585_j1666447311389_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic
import Idealize.ShloMosaic.Lib.ReduceAll

noncomputable section

namespace Cert.KernelIdeal.Take

open Cert.KernelIdeal Cert.KernelIdeal.Facts₀ Cert.KernelIdeal.Facts Idealize.ShloMosaic Idealize.ShloMosaic.TcCoe Idealize.SL.Sem

/-- Every source index is a node index: 0 ≤ s e < 50000 as signed 32-bit integers. -/
def SrcOk (s : IVec S500000 32) : Prop :=
  ∀ e : S500000.Idx, IntOp.cmpi .sge (s e) 0#32 = 1#1 ∧ IntOp.cmpi .slt (s e) 50000#32 = 1#1

variable {F : FTy → Type} [FloatOps F]

/-- The index column the kernel's program gathers with: a negative index counted from the end. -/
def wrapped (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 50000#32))) s)

/-- The kernel program's take: rows gathered at the wrapped index where 0 ≤ index ≤ 49999, the fill word elsewhere. -/
def ktake (n : FVec F S50000x128 .f32) (s : IVec S500000 32) : FVec F S500000x128 .f32 :=
  select
    (broadcastInDim S500000x128 ![0] bcast_S500000_S500000x128_0
      (Host.reduce IntOp.andi
        (andi (cmpi .sge (wrapped s) (broadcastInDim S500000x1 ![] bcast_S_S500000x1 (constantI S_ 32 0#32)))
          (cmpi .sle (wrapped s) (broadcastInDim S500000x1 ![0, 1] bcast_S1x1_S500000x1_0_1
            (broadcastInDim S1x1 ![1] bcast_S1_S1x1_1 (constantI S1 32 49999#32)))))
        (constantI S_ 1 1#1) reducesTo_S500000x1_S500000_d1 h_S_))
    (Host.gather gather_S50000x128_S500000x1_S500000x128_1_0_n_n_0_1_1128 n (wrapped s))
    (broadcastInDim S500000x128 ![] bcast_S_S500000x128 (constant S_ .f32 0x7FC00000#32))

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from 1 of an array whose every word is 1 is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  unfold Host.reduce
  rw [hinit]
  exact foldl_andi_one (fun n => x (s.rowMajor.symm n)) (fun n => hx _) _

/-- A select whose condition is 1 everywhere is its first branch. -/
theorem select_of_all_one {α : Type} {s : Shape} (c : IVec s 1) (a b : s.Idx → α) (hc : ∀ i, c i = 1#1) : select c a b = a :=
  funext fun i => by rw [ValueIdx.select_apply, hc i]; exact ValueIdx.select_one _ _

/-- The kernel's index column is the reference's: the same operations, their side conditions proofs. -/
theorem wrapped_eq (s : IVec S500000 32) : wrapped s = Cert.Stages.wrapIdx s := rfl

/-- A node index is not negative, so it is not counted from the end: the column holds the index itself. -/
theorem wrapped_apply (s : IVec S500000 32) (hs : SrcOk s) (j : S500000x1.Idx) :
    wrapped s j = s (ValueIdx.ix1 (n := 500000) (j 0)) := by
  unfold wrapped
  refine (broadcastInDim_apply _ bcast_S500000_S500000x1_0 _ j (ValueIdx.ix1 (n := 500000) (j 0)) (fun a => match a with
    | ⟨0, _⟩ => by show (j 0).val = if (500000 : Nat) = 1 then 0 else (j 0).val; rw [if_neg (by decide)])).trans ?_
  rw [ValueIdx.select_apply]
  have h0 : ¬ IntOp.cmpi .slt (s (ValueIdx.ix1 (n := 500000) (j 0))) 0#32 = 1#1 := by
    rw [IntOp.cmpi_slt]
    have := IntOp.cmpi_sge.1 (hs (ValueIdx.ix1 (n := 500000) (j 0))).1
    omega
  exact if_neg h0

/-- The range test 0 ≤ index ≤ 49999 passes at every edge. -/
theorem inRange_apply (s : IVec S500000 32) (hs : SrcOk s) (i : S500000x1.Idx) :
    andi (cmpi .sge (wrapped s) (broadcastInDim S500000x1 ![] bcast_S_S500000x1 (constantI S_ 32 0#32)))
      (cmpi .sle (wrapped s) (broadcastInDim S500000x1 ![0, 1] bcast_S1x1_S500000x1_0_1
        (broadcastInDim S1x1 ![1] bcast_S1_S1x1_1 (constantI S1 32 49999#32)))) i = 1#1 := by
  show IntOp.andi (IntOp.cmpi .sge (wrapped s i) 0#32) (IntOp.cmpi .sle (wrapped s i) 49999#32) = 1#1
  rw [wrapped_apply s hs i]
  obtain ⟨h1, h2⟩ := hs (ValueIdx.ix1 (n := 500000) (i 0))
  refine IntOp.andi_eq_one.2 ⟨h1, IntOp.cmpi_sle.2 ?_⟩
  have h3 := IntOp.cmpi_slt.1 h2
  rw [show (50000#32 : BitVec 32).toInt = 50000 from by decide] at h3
  rw [show (49999#32 : BitVec 32).toInt = 49999 from by decide]
  omega

/-- The broadcast mask of the take is 1 at every entry. -/
theorem mask_apply (s : IVec S500000 32) (hs : SrcOk s) (i : S500000x128.Idx) :
    broadcastInDim S500000x128 ![0] bcast_S500000_S500000x128_0
      (Host.reduce IntOp.andi
        (andi (cmpi .sge (wrapped s) (broadcastInDim S500000x1 ![] bcast_S_S500000x1 (constantI S_ 32 0#32)))
          (cmpi .sle (wrapped s) (broadcastInDim S500000x1 ![0, 1] bcast_S1x1_S500000x1_0_1
            (broadcastInDim S1x1 ![1] bcast_S1_S1x1_1 (constantI S1 32 49999#32)))))
        (constantI S_ 1 1#1) reducesTo_S500000x1_S500000_d1 h_S_) i = 1#1 :=
  (broadcastInDim_apply _ bcast_S500000_S500000x128_0 _ i (ValueIdx.ix1 (n := 500000) (i 0)) (fun a => match a with
    | ⟨0, _⟩ => by show (i 0).val = if (500000 : Nat) = 1 then 0 else (i 0).val; rw [if_neg (by decide)])).trans
  (reduce_andi_of_all _ _ _ _ rfl (inRange_apply s hs) _)

/-- With every source index a node index, the kernel's take is the reference's gather. -/
theorem ktake_eq (n : FVec Ideal S50000x128 .f32) (s : IVec S500000 32) (hs : SrcOk s) :
    ktake (F := Ideal) n s = Cert.Stages.gath (F := Ideal) n s := by
  unfold ktake
  refine (select_of_all_one _ _ _ (mask_apply s hs)).trans ?_
  rfl

end Cert.KernelIdeal.Take

end
-- ==== Proof.Region0.lean ====
/-
  The node embedding: the 25 row blocks of 2000 rows the first linear kernel writes are together x · Waᵀ + ba, every row computed from its own row of x.
-/
import proofs.«414585_j1666447311389_1_alg».proof.Proof.Gen.KernelIdeal.Frame
import proofs.«414585_j1666447311389_1_alg».proof.Proof.Gen.ReferenceIdeal.Read
import proofs.«414585_j1666447311389_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

namespace Cert.KernelIdeal.Region0

open Cert.KernelIdeal Cert.KernelIdeal.Gen Idealize.ShloMosaic Idealize.ShloMosaic.TcCoe Idealize.SL.Sem
open Idealize.ShloMosaic.Pipeline (Dat)

/-! ## The block's product, entry by entry -/

/-- Entry (row of `j`, `k`) of a block of x. -/
abbrev xAt (j : S2000x128.Idx) (k : Fin 128) : S2000x128.Idx := fun a => match a with
  | ⟨0, _⟩ => ⟨(j 0).val, (j 0).isLt⟩
  | ⟨1, _⟩ => ⟨k.val, k.isLt⟩
/-- Entry (`k`, column of `j`) of the transposed weight. -/
abbrev wtAt (j : S2000x128.Idx) (k : Fin 128) : S128x128.Idx := fun a => match a with
  | ⟨0, _⟩ => ⟨k.val, k.isLt⟩
  | ⟨1, _⟩ => ⟨(j 1).val, (j 1).isLt⟩
/-- Entry (column of `j`, `k`) of the weight. -/
abbrev wAt (j : S2000x128.Idx) (k : Fin 128) : S128x128.Idx := fun a => match a with
  | ⟨0, _⟩ => ⟨(j 1).val, (j 1).isLt⟩
  | ⟨1, _⟩ => ⟨k.val, k.isLt⟩
/-- The bias entry of the column of `j`, in the 1 × 128 row. -/
abbrev brAt (j : S2000x128.Idx) : S1x128.Idx := fun a => match a with
  | ⟨0, _⟩ => ⟨0, Nat.one_pos⟩
  | ⟨1, _⟩ => ⟨(j 1).val, (j 1).isLt⟩
/-- The bias entry of the column of `j`. -/
abbrev bAt (j : S2000x128.Idx) : S128.Idx := fun a => match a with
  | ⟨0, _⟩ => ⟨(j 1).val, (j 1).isLt⟩

theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at an entry: the sum over the contraction index. -/
theorem mm_apply (l : FVec Ideal S2000x128 .bf16) (r : FVec Ideal S128x128 .bf16) (j : S2000x128.Idx) :
    matmul dot_S2000x128_S128x128_S2000x128_1_0_0_1_n_n none l r (constant (F := Ideal) S2000x128 .f32 0x00000000#32) j
      = ∑ k : Fin 128, l (xAt j k) * r (wtAt j k) := by
  show FloatOps.matmul dot_S2000x128_S128x128_S2000x128_1_0_0_1_n_n none l r (constant (F := Ideal) S2000x128 .f32 0x00000000#32) j = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = xAt j k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx j ((ValueIdx.contrEquiv1 dot_S2000x128_S128x128_S2000x128_1_0_0_1_n_n 128 rfl rfl).symm k) = wtAt j k := funext fun a => Fin.ext (by
    match a with
    | ⟨0, _⟩ => exact (rhs_mm_0 _ _).trans hk
    | ⟨1, _⟩ => exact rhs_mm_1 _ _)
  rw [el, er]

/-- The transposed weight at (`k`, column) is the weight at (column, `k`). -/
theorem wt_apply (w : FVec Ideal S128x128 .bf16) (h : S128x128.Transposes [1, 0] S128x128) (j : S2000x128.Idx) (k : Fin 128) :
    transpose S128x128 [1, 0] w h (wtAt j k) = w (wAt j k) :=
  transpose_apply [1, 0] w h (wtAt j k) (wAt j k) (fun b => match b with
    | ⟨0, _⟩ => rfl
    | ⟨1, _⟩ => rfl)

/-- The bias row spread over the block's rows, at an entry: the bias of the entry's column. -/
theorem bias_apply (b : FVec Ideal S128 .f32) (h1 : S128.ShapeCasts S1x128) (h2 : S1x128.Broadcasts S2000x128) (j : S2000x128.Idx) :
    broadcastTo S2000x128 (shapeCast S1x128 b h1) h2 j = b (bAt j) := by
  rw [broadcastTo_apply (shapeCast S1x128 b h1) h2 j (brAt j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  exact shapeCast_apply b h1 (brAt j) (bAt j)
    (by rewrite [Shape.rowMajor_val_two, Shape.rowMajor_val_one]; have h0 : (j 1).val < 128 := (j 1).isLt; show (j 1).val = 0 * 128 + (j 1).val; omega)

/-- What the kernel stores for a block, at an entry: Σ_k x[row, k] · w[column, k] + b[column]. -/
theorem pay_apply (v0 : Vec Ideal S2000x128 .f32) (v2 : Vec Ideal S128x128 .f32) (v6 : Vec Ideal S128 .f32) (j : S2000x128.Idx) :
    k0_pay1 (F := Ideal) v0 v2 v6 j = (∑ k : Fin 128, v0 (xAt j k) * v2 (wAt j k)) + v6 (bAt j) := by
  unfold k0_pay1
  show addf (matmul dot_S2000x128_S128x128_S2000x128_1_0_0_1_n_n none (truncf .bf16 v0 _) (transpose S128x128 [1, 0] (truncf .bf16 v2 _) _) (constant (F := Ideal) S2000x128 .f32 0x00000000#32))
    (broadcastTo S2000x128 (shapeCast S1x128 v6 _) _) j = _
  rw [ValueIdx.addf_apply, mm_apply, bias_apply]
  refine congrArg (· + v6 (bAt j)) (Finset.sum_congr rfl fun k _ => ?_)
  rw [wt_apply]
  rfl

/-! ## The whole product, entry by entry -/

/-- The stage function at an entry: Σ_k x[row, k] · w[column, k] + b[column]. -/
theorem lin0_apply (x : FVec Ideal S50000x128 .f32) (w : FVec Ideal S128x128 .f32) (b : FVec Ideal S128 .f32) (i : S50000x128.Idx) :
    Cert.Stages.lin0 (F := Ideal) x w b i
      = (∑ k : Fin 128, x (Cert.ReferenceIdeal.Read.lidx_main_v5 i k) * w (Cert.ReferenceIdeal.Read.idx_main_v4 (Cert.ReferenceIdeal.Read.ridx_main_v5 i k)))
        + b (Cert.ReferenceIdeal.Read.idx_main_v6 (Cert.ReferenceIdeal.Read.idx_main_v7 i)) := by
  show Cert.ReferenceIdeal.Read.val_main_v8 (F := Ideal) x w b i = _
  rw [Cert.ReferenceIdeal.Read.val_main_v8_apply, Cert.ReferenceIdeal.Read.val_main_v5_apply, Cert.ReferenceIdeal.Read.val_main_v7_apply,
    Cert.ReferenceIdeal.Read.val_main_v6_apply]
  simp only [Cert.ReferenceIdeal.Read.val_main_v4_apply]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps, decided over the grid: point `t` reads row block `t` of x, the whole weight and the whole
    bias, and writes row block `t` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is row block `t` of x · Waᵀ + ba of the arrays as the region finds them. -/
theorem flushed_eq (c : Dev nD) (t : Fin cfg0.N) :
    (dat0 (F := Ideal) V c).flushed 3 t
      = ((cfg0.win 3).blk t).view.read (Elt Ideal) (Cert.Stages.lin0 (F := Ideal) (V c main_arg0) (V c main_arg4) (V c main_arg5)) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x128) hz, View.ld_unit_zero (S := S128) hz1]
  obtain ⟨e0, e1, e2, e3, e4, e5, e6⟩ := idx_facts t
  funext j
  show k0_pay1 (F := Ideal) (iblk0 V c 0 t) (iblk0 V c 1 t) (iblk0 V c 2 t) j
    = Cert.Stages.lin0 (F := Ideal) (V c main_arg0) (V c main_arg4) (V c main_arg5) (((cfg0.win 3).blk t).view.emb j)
  rw [pay_apply, lin0_apply]
  have h0 : ∀ k : Fin 128, ((cfg0.win 0).blk t).view.emb (xAt j k) = Cert.ReferenceIdeal.Read.lidx_main_v5 (((cfg0.win 3).blk t).view.emb j) k := fun k => by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  have h1 : ∀ k : Fin 128, ((cfg0.win 1).blk t).view.emb (wAt j k)
      = Cert.ReferenceIdeal.Read.idx_main_v4 (Cert.ReferenceIdeal.Read.ridx_main_v5 (((cfg0.win 3).blk t).view.emb j) k) := fun k => by
    funext a; apply Fin.ext
    match a with
    | ⟨0, _⟩ => show win0_1.index t (0 : Fin 2) * 128 + 1 * (j 1).val = win0_3.index t (1 : Fin 2) * 128 + 1 * (j 1).val; omega
    | ⟨1, _⟩ => show win0_1.index t (1 : Fin 2) * 128 + 1 * k.val = k.val; omega
  have h2 : ((cfg0.win 2).blk t).view.emb (bAt j)
      = Cert.ReferenceIdeal.Read.idx_main_v6 (Cert.ReferenceIdeal.Read.idx_main_v7 (((cfg0.win 3).blk t).view.emb j)) := by
    funext a; apply Fin.ext
    match a with
    | ⟨0, _⟩ => show win0_2.index t (0 : Fin 1) * 128 + 1 * (j 1).val = win0_3.index t (1 : Fin 2) * 128 + 1 * (j 1).val; omega
  have key : ∀ (x : FVec Ideal S50000x128 .f32) (w : FVec Ideal S128x128 .f32) (b : FVec Ideal S128 .f32),
      (∑ k : Fin 128, x (((cfg0.win 0).blk t).view.emb (xAt j k)) * w (((cfg0.win 1).blk t).view.emb (wAt j k)))
          + b (((cfg0.win 2).blk t).view.emb (bAt j))
        = (∑ k : Fin 128, x (Cert.ReferenceIdeal.Read.lidx_main_v5 (((cfg0.win 3).blk t).view.emb j) k)
            * w (Cert.ReferenceIdeal.Read.idx_main_v4 (Cert.ReferenceIdeal.Read.ridx_main_v5 (((cfg0.win 3).blk t).view.emb j) k)))
          + b (Cert.ReferenceIdeal.Read.idx_main_v6 (Cert.ReferenceIdeal.Read.idx_main_v7 (((cfg0.win 3).blk t).view.emb j))) := fun x w b => by
    rw [h2]
    simp only [h0, h1]
  exact key (V c main_arg0) (V c main_arg4) (V c main_arg5)

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v4).slice (win0_3.rect t)).set ↔ _
  rw [View.set_slice_whole, Rect.mem_set_unit]
  exact Iff.rfl

/-- Every row of the array is in the block of the point its row index divided by 2000 names. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨e0, e1, e2, e3, e4, e5, e6⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After region 0, its output array (whatever the buffers held when the region was entered: `V`) is the stage function of the
    region's input arrays as entered. -/
theorem arr (c : Dev nD) :
    (dat0 (F := Ideal) V c).arrAt 3 cfg0.N = Cert.Stages.lin0 (F := Ideal) (V c main_arg0) (V c main_arg4) (V c main_arg5) :=
  (dat0 (F := Ideal) V c).arrAt_eq_of_cover 3 _ (fun t _ => flushed_eq V c t) cover

end Cert.KernelIdeal.Region0

end
-- ==== Proof.Region1.lean ====
/-
  The edge embedding: the 100 row blocks of 5000 rows the second linear kernel writes are together edge_attr · Wbᵀ + bb.
-/
import proofs.«414585_j1666447311389_1_alg».proof.Proof.Gen.KernelIdeal.Frame
import proofs.«414585_j1666447311389_1_alg».proof.Proof.Stages
import proofs.«414585_j1666447311389_1_alg».proof.Proof.Gen.ReferenceIdeal.Read
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

namespace Cert.KernelIdeal.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## One block: row p, column q of the block's product is Σ_k x[p,k] · w[q,k] + b[q] -/

/-- The block product's left operand index on the row axis is the output's row. -/
theorem lhs_blockDot_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and on the contracted axis the contraction index. -/
theorem lhs_blockDot_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- The right operand index on the contracted axis is the contraction index … -/
theorem rhs_blockDot_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … and on the column axis the output's column. -/
theorem rhs_blockDot_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry (row of j, k) of a block of edge attributes. -/
abbrev attrAt (j : S5000x128.Idx) (k : Fin 64) : S5000x64.Idx := fun a => match a with
  | ⟨0, _⟩ => ⟨(j 0).val, (j 0).isLt⟩
  | ⟨1, _⟩ => ⟨k.val, k.isLt⟩
/-- Entry (k, column of j) of the transposed weights. -/
abbrev wgtTAt (j : S5000x128.Idx) (k : Fin 64) : S64x128.Idx := fun a => match a with
  | ⟨0, _⟩ => ⟨k.val, k.isLt⟩
  | ⟨1, _⟩ => ⟨(j 1).val, (j 1).isLt⟩
/-- Entry (column of j, k) of the weights. -/
abbrev wgtAt (j : S5000x128.Idx) (k : Fin 64) : S128x64.Idx := fun a => match a with
  | ⟨0, _⟩ => ⟨(j 1).val, (j 1).isLt⟩
  | ⟨1, _⟩ => ⟨k.val, k.isLt⟩
/-- The one row of the bias at the column of j. -/
abbrev biasRowAt (j : S5000x128.Idx) : S1x128.Idx := fun a => match a with
  | ⟨0, _⟩ => ⟨0, Nat.one_pos⟩
  | ⟨1, _⟩ => ⟨(j 1).val, (j 1).isLt⟩
/-- The bias at the column of j. -/
abbrev biasAt (j : S5000x128.Idx) : S128.Idx := fun a => match a with
  | ⟨0, _⟩ => ⟨(j 1).val, (j 1).isLt⟩

/-- The block's matrix product into a zero accumulator, at an index: the sum over the 64 contracted entries. -/
theorem blockDot_apply (x : FVec Ideal S5000x64 .bf16) (y : FVec Ideal S64x128 .bf16) (j : S5000x128.Idx) :
    matmul dot_S5000x64_S64x128_S5000x128_1_0_0_1_n_n none x y (constant (F := Ideal) S5000x128 .f32 0x00000000#32) j
      = ∑ k : Fin 64, x (attrAt j k) * y (wgtTAt j k) := by
  show FloatOps.matmul dot_S5000x64_S64x128_S5000x128_1_0_0_1_n_n none x y (constant (F := Ideal) S5000x128 .f32 0x00000000#32) j = _
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx j ((ValueIdx.contrEquiv1 dot_S5000x64_S64x128_S5000x128_1_0_0_1_n_n 64 rfl rfl).symm k) = attrAt j k := funext fun a => Fin.ext (by
    match a with
    | ⟨0, _⟩ => exact lhs_blockDot_0 _ _
    | ⟨1, _⟩ => exact (lhs_blockDot_1 _ _).trans hk)
  have er : dot_S5000x64_S64x128_S5000x128_1_0_0_1_n_n.rhsIdx j ((ValueIdx.contrEquiv1 dot_S5000x64_S64x128_S5000x128_1_0_0_1_n_n 64 rfl rfl).symm k) = wgtTAt j k := funext fun a => Fin.ext (by
    match a with
    | ⟨0, _⟩ => exact (rhs_blockDot_0 _ _).trans hk
    | ⟨1, _⟩ => exact rhs_blockDot_1 _ _)
  rw [el, er]

/-- What the kernel stores for one block, at row and column j. -/
theorem pay_apply (x : Vec Ideal S5000x64 .f32) (w : Vec Ideal S128x64 .f32) (b : Vec Ideal S128 .f32) (j : S5000x128.Idx) :
    k1_pay1 (F := Ideal) x w b j = (∑ k : Fin 64, x (attrAt j k) * w (wgtAt j k)) + b (biasAt j) := by
  show addf (matmul dot_S5000x64_S64x128_S5000x128_1_0_0_1_n_n none (truncf .bf16 (x : FVec Ideal S5000x64 .f32) bitsLt_bf16_f32)
        (transpose S64x128 [1, 0] (truncf .bf16 (w : FVec Ideal S128x64 .f32) bitsLt_bf16_f32) transposes_S128x64_p1_0_S64x128)
        (constant (F := Ideal) S5000x128 .f32 0x00000000#32))
      (broadcastTo S5000x128 (shapeCast S1x128 (b : FVec Ideal S128 .f32) shapeCasts_S128_S1x128) broadcasts_S1x128_S5000x128) j = _
  rw [ValueIdx.addf_apply, blockDot_apply]
  have hb : broadcastTo S5000x128 (shapeCast S1x128 (b : FVec Ideal S128 .f32) shapeCasts_S128_S1x128) broadcasts_S1x128_S5000x128 j = b (biasAt j) := by
    generalize hy : shapeCast S1x128 (b : FVec Ideal S128 .f32) shapeCasts_S128_S1x128 = y
    rw [broadcastTo_apply y broadcasts_S1x128_S5000x128 j (biasRowAt j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])]
    rw [← hy]
    exact shapeCast_apply (b : FVec Ideal S128 .f32) shapeCasts_S128_S1x128 (biasRowAt j) (biasAt j) (by
      rw [Shape.rowMajor_val_two, Shape.rowMajor_val_one]; show (j 1).val = 0 * 128 + (j 1).val; omega)
  rw [hb]
  refine congrArg (· + b (biasAt j)) (Finset.sum_congr rfl fun k _ => ?_)
  rw [ValueIdx.truncf_apply]
  refine congrArg (x (attrAt j k) * ·) ?_
  exact (transpose_apply [1, 0] (truncf (F := Ideal) .bf16 (w : FVec Ideal S128x64 .f32) bitsLt_bf16_f32) transposes_S128x64_p1_0_S64x128 (wgtTAt j k) (wgtAt j k) (fun c => match c with
    | ⟨0, _⟩ => rfl
    | ⟨1, _⟩ => rfl))

/-! ## The whole array: row r, column q of edge_attr · Wbᵀ + bb is Σ_k edge_attr[r,k] · Wb[q,k] + bb[q] -/

/-- The stage function at an array index: the same sum over the 64 contracted entries, plus the bias at the column. -/
theorem lin1_apply (x : FVec Ideal S500000x64 .f32) (w : FVec Ideal S128x64 .f32) (b : FVec Ideal S128 .f32) (i : S500000x128.Idx) :
    Cert.Stages.lin1 (F := Ideal) x w b i
      = (∑ k : Fin 64, x (Cert.ReferenceIdeal.Read.lidx_main_v10 i k)
            * w (Cert.ReferenceIdeal.Read.idx_main_v9 (Cert.ReferenceIdeal.Read.ridx_main_v10 i k)))
        + b (Cert.ReferenceIdeal.Read.idx_main_v11 (Cert.ReferenceIdeal.Read.idx_main_v12 i)) := by
  show Cert.ReferenceIdeal.Read.val_main_v13 (F := Ideal) x w b i = _
  rw [Cert.ReferenceIdeal.Read.val_main_v13_apply, Cert.ReferenceIdeal.Read.val_main_v10_apply,
    Cert.ReferenceIdeal.Read.val_main_v12_apply, Cert.ReferenceIdeal.Read.val_main_v11_apply]
  simp only [Cert.ReferenceIdeal.Read.val_main_v9_apply]
  rfl

/-! ## From the 100 row blocks to the array -/

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 100 grid points: the block of edge attributes moves with the output's row
    block; the weights, the bias and the output's columns stay at block 0. -/
theorem blockIdx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (1 : Fin 2) = 0
    ∧ win1_3.index t (0 : Fin 2) ≤ 99 :=
  (by decide +kernel : ∀ t : Fin grid1.N, _)

/-- Every one of the 100 row blocks is some grid point's. -/
theorem rowBlock_onto : ∀ (q0 : Fin 100), ∃ t : Fin cfg1.N, win1_3.index t = ![q0.val, 0] :=
  (by decide +kernel : ∀ (q0 : Fin 100), ∃ t : Fin grid1.N, win1_3.index t = ![q0.val, 0])

/-- What grid point t writes back is row block t of edge_attr · Wbᵀ + bb of the arrays as the region finds them. -/
theorem rowBlock_eq (c : Dev nD) (t : Fin cfg1.N) :
    (dat1 (F := Ideal) V c).flushed 3 t
      = ((cfg1.win 3).blk t).view.read (Elt Ideal) (Cert.Stages.lin1 (F := Ideal) (V c main_arg1) (V c main_arg6) (V c main_arg7)) := by
  show (cfg1.win 3).cut (grid1.coords t) ((dat1 (F := Ideal) V c).after 3 t) = _
  rw [after1_3]
  unfold out1_3
  rw [View.canon_unit_zero zero2]
  simp only [View.ld_unit_zero (S := S5000x64) zero2, View.ld_unit_zero (S := S128x64) zero2, View.ld_unit_zero (S := S128) zero1]
  obtain ⟨e0, e1, e2, e3, e4, e5, e6⟩ := blockIdx_facts t
  funext j
  show k1_pay1 (F := Ideal) (iblk1 V c 0 t) (iblk1 V c 1 t) (iblk1 V c 2 t) j
    = Cert.Stages.lin1 (F := Ideal) (V c main_arg1) (V c main_arg6) (V c main_arg7) (((cfg1.win 3).blk t).view.emb j)
  rw [pay_apply, lin1_apply]
  have hx : ∀ k : Fin 64, iblk1 V c 0 t (attrAt j k)
      = V c main_arg1 (Cert.ReferenceIdeal.Read.lidx_main_v10 (((cfg1.win 3).blk t).view.emb j) k) := fun k => by
    show V c main_arg1 (((cfg1.win 0).blk t).view.emb (attrAt j k)) = _
    refine congrArg (V c main_arg1) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  have hw : ∀ k : Fin 64, iblk1 V c 1 t (wgtAt j k)
      = V c main_arg6 (Cert.ReferenceIdeal.Read.idx_main_v9 (Cert.ReferenceIdeal.Read.ridx_main_v10 (((cfg1.win 3).blk t).view.emb j) k)) := fun k => by
    show V c main_arg6 (((cfg1.win 1).blk t).view.emb (wgtAt j k)) = _
    refine congrArg (V c main_arg6) (funext fun a => Fin.ext ?_)
    match a with
    | ⟨0, _⟩ => show win1_1.index t (0 : Fin 2) * 128 + 1 * (j 1).val = win1_3.index t (1 : Fin 2) * 128 + 1 * (j 1).val; omega
    | ⟨1, _⟩ => show win1_1.index t (1 : Fin 2) * 64 + 1 * k.val = k.val; omega
  have hb : iblk1 V c 2 t (biasAt j)
      = V c main_arg7 (Cert.ReferenceIdeal.Read.idx_main_v11 (Cert.ReferenceIdeal.Read.idx_main_v12 (((cfg1.win 3).blk t).view.emb j))) := by
    show V c main_arg7 (((cfg1.win 2).blk t).view.emb (biasAt j)) = _
    refine congrArg (V c main_arg7) (funext fun a => Fin.ext ?_)
    match a with
    | ⟨0, _⟩ => show win1_2.index t (0 : Fin 1) * 128 + 1 * (j 1).val = win1_3.index t (1 : Fin 2) * 128 + 1 * (j 1).val; omega
  rw [hb]
  exact congrArg (· + _) (Finset.sum_congr rfl fun k _ => by rw [hx k, hw k])

/-- An index of the array is in grid point t's block iff each coordinate is in the block's range on its axis. -/
theorem mem_rowBlock (t : Fin cfg1.N) (i : S500000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v5).slice (win1_3.rect t)).set ↔ _
  rw [View.set_slice_whole, Rect.mem_set_unit]
  exact Iff.rfl

/-- Row r of the array is in row block r / 5000: the 500000 rows are exactly 100 blocks of 5000. -/
theorem rowBlocks_cover (i : S500000x128.Idx) :
    ∃ t : Fin cfg1.N, (cfg1.win 3).flush t = true ∧ i ∈ ((cfg1.win 3).blk t).view.set := by
  have hi0 : (i 0).val < 500000 := (i 0).isLt
  have hi1 : (i 1).val < 128 := (i 1).isLt
  obtain ⟨t, ht⟩ := rowBlock_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_rowBlock]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After region 1, its output array (whatever the buffers held when the region was entered: `V`) is the stage function of the
    region's input arrays as entered. -/
theorem arr (c : Dev nD) :
    (dat1 (F := Ideal) V c).arrAt 3 cfg1.N = Cert.Stages.lin1 (F := Ideal) (V c main_arg1) (V c main_arg6) (V c main_arg7) :=
  (dat1 (F := Ideal) V c).arrAt_eq_of_cover 3 _ (fun t _ => rowBlock_eq V c t) rowBlocks_cover

end Cert.KernelIdeal.Region1

end
-- ==== Proof.Region2.lean ====
/-
  The first round's messages: the 100 row blocks of the entrywise product are the entrywise product of the whole arrays.
-/
import proofs.«414585_j1666447311389_1_alg».proof.Proof.Gen.KernelIdeal.Frame
import proofs.«414585_j1666447311389_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

namespace Cert.KernelIdeal.Region2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_origin : (![0, 0] : Fin 2 → Nat) = fun _ => 0 := funext fun a => by fin_cases a <;> rfl

/-- The body's arithmetic on its two loaded blocks: the two casts change nothing, so it is their entrywise product. -/
theorem payload_eq (x0 x1 : Vec Ideal S5000x128 .f32) : k2_pay1 (F := Ideal) x0 x1 = mulf x0 x1 := by
  unfold k2_pay1
  simp only [shapeCast_self]

/-- The block indices, decided over the grid: at every point the two input windows sit on the output window's block,
    which is row block number at most 99 and the only column block. -/
theorem block_index_facts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) ≤ 99
    ∧ win2_2.index t (1 : Fin 2) = 0 :=
  (by decide +kernel : ∀ t : Fin grid2.N, _)

/-- Every row block is some point's output block. -/
theorem block_index_onto : ∀ q : Fin 100, ∃ t : Fin cfg2.N, win2_2.index t = ![q.val, 0] :=
  (by decide +kernel : ∀ q : Fin 100, ∃ t : Fin grid2.N, win2_2.index t = ![q.val, 0])

/-- What point `t` writes back is block `t` of the entrywise product of the two whole input arrays. -/
theorem flushed_eq (c : Dev nD) (t : Fin cfg2.N) :
    (dat2 (F := Ideal) V c).flushed 2 t
      = ((cfg2.win 2).blk t).view.read (Elt Ideal) (Cert.Stages.emul (F := Ideal) (V c main_v6) (V c main_v5)) := by
  show (cfg2.win 2).cut (grid2.coords t) ((dat2 (F := Ideal) V c).after 2 t) = _
  rw [after2_2]
  unfold out2_2
  rw [View.canon_unit_zero zero_origin]
  simp only [View.ld_unit_zero (S := S5000x128) zero_origin]
  rw [payload_eq]
  obtain ⟨e0, e1, e2, e3, e4, e5⟩ := block_index_facts t
  funext j
  show FloatOps.mulf (F := Ideal) (φ := .f32) (V c main_v6 (((cfg2.win 0).blk t).view.emb j)) (V c main_v5 (((cfg2.win 1).blk t).view.emb j))
    = FloatOps.mulf (F := Ideal) (φ := .f32) (V c main_v6 (((cfg2.win 2).blk t).view.emb j)) (V c main_v5 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  rw [h0, h1]

/-- An index of the output array is in point `t`'s block iff each coordinate is in the block's range on its axis. -/
theorem mem_block (t : Fin cfg2.N) (i : S500000x128.Idx) :
    i ∈ ((cfg2.win 2).blk t).view.set
      ↔ ∀ a : Fin 2, win2_2.index t a * S5000x128.size a ≤ (i a).val ∧ (i a).val < win2_2.index t a * S5000x128.size a + S5000x128.size a := by
  show i ∈ ((View.whole main_v7).slice (win2_2.rect t)).set ↔ _
  rw [View.set_slice_whole, Rect.mem_set_unit]
  exact Iff.rfl

/-- The 100 row blocks of 5000 rows fill the 500000 rows: row `r` is in block `r / 5000`. -/
theorem cover (i : S500000x128.Idx) :
    ∃ t : Fin cfg2.N, (cfg2.win 2).flush t = true ∧ i ∈ ((cfg2.win 2).blk t).view.set := by
  have hi0 : (i 0).val < 500000 := (i 0).isLt
  have hi1 : (i 1).val < 128 := (i 1).isLt
  obtain ⟨t, ht⟩ := block_index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2, its output array (whatever the buffers held when the region was entered: `V`) is the stage function of the
    region's input arrays as entered. -/
theorem arr (c : Dev nD) :
    (dat2 (F := Ideal) V c).arrAt 2 cfg2.N = Cert.Stages.emul (F := Ideal) (V c main_v6) (V c main_v5) :=
  (dat2 (F := Ideal) V c).arrAt_eq_of_cover 2 (Cert.Stages.emul (F := Ideal) (V c main_v6) (V c main_v5))
    (fun t _ => flushed_eq V c t) (cover)

end Cert.KernelIdeal.Region2

end
-- ==== Proof.Region3.lean ====
/-
  The first residual update: the 25 row blocks of the entrywise sum are the entrywise sum of the whole arrays.
-/
import proofs.«414585_j1666447311389_1_alg».proof.Proof.Gen.KernelIdeal.Frame
import proofs.«414585_j1666447311389_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

namespace Cert.KernelIdeal.Region3

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_origin : (![0, 0] : Fin 2 → Nat) = fun _ => 0 := funext fun a => by fin_cases a <;> rfl

/-- The body's arithmetic on its two loaded blocks: the two casts change nothing, so it is their entrywise sum. -/
theorem payload_eq (x0 x1 : Vec Ideal S2000x128 .f32) : k3_pay1 (F := Ideal) x0 x1 = addf x0 x1 := by
  unfold k3_pay1
  simp only [shapeCast_self]

/-- The block indices, decided over the grid: at every point the two input windows sit on the output window's block,
    which is row block number at most 24 and the only column block. -/
theorem block_index_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 24
    ∧ win3_2.index t (1 : Fin 2) = 0 :=
  (by decide +kernel : ∀ t : Fin grid3.N, _)

/-- Every row block is some point's output block. -/
theorem block_index_onto : ∀ q : Fin 25, ∃ t : Fin cfg3.N, win3_2.index t = ![q.val, 0] :=
  (by decide +kernel : ∀ q : Fin 25, ∃ t : Fin grid3.N, win3_2.index t = ![q.val, 0])

/-- What point `t` writes back is block `t` of the entrywise sum of the two whole input arrays. -/
theorem flushed_eq (c : Dev nD) (t : Fin cfg3.N) :
    (dat3 (F := Ideal) V c).flushed 2 t
      = ((cfg3.win 2).blk t).view.read (Elt Ideal) (Cert.Stages.nadd (F := Ideal) (V c main_v4) (V c main_v10)) := by
  show (cfg3.win 2).cut (grid3.coords t) ((dat3 (F := Ideal) V c).after 2 t) = _
  rw [after3_2]
  unfold out3_2
  rw [View.canon_unit_zero zero_origin]
  simp only [View.ld_unit_zero (S := S2000x128) zero_origin]
  rw [payload_eq]
  obtain ⟨e0, e1, e2, e3, e4, e5⟩ := block_index_facts t
  funext j
  show FloatOps.addf (F := Ideal) (φ := .f32) (V c main_v4 (((cfg3.win 0).blk t).view.emb j)) (V c main_v10 (((cfg3.win 1).blk t).view.emb j))
    = FloatOps.addf (F := Ideal) (φ := .f32) (V c main_v4 (((cfg3.win 2).blk t).view.emb j)) (V c main_v10 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 128 + 1 * (j 1).val = win3_2.index t (1 : Fin 2) * 128 + 1 * (j 1).val; omega
  rw [h0, h1]

/-- An index of the output array is in point `t`'s block iff each coordinate is in the block's range on its axis. -/
theorem mem_block (t : Fin cfg3.N) (i : S50000x128.Idx) :
    i ∈ ((cfg3.win 2).blk t).view.set
      ↔ ∀ a : Fin 2, win3_2.index t a * S2000x128.size a ≤ (i a).val ∧ (i a).val < win3_2.index t a * S2000x128.size a + S2000x128.size a := by
  show i ∈ ((View.whole main_v11).slice (win3_2.rect t)).set ↔ _
  rw [View.set_slice_whole, Rect.mem_set_unit]
  exact Iff.rfl

/-- The 25 row blocks of 2000 rows fill the 50000 rows: row `r` is in block `r / 2000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := block_index_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After region 3, its output array (whatever the buffers held when the region was entered: `V`) is the stage function of the
    region's input arrays as entered. -/
theorem arr (c : Dev nD) :
    (dat3 (F := Ideal) V c).arrAt 2 cfg3.N = Cert.Stages.nadd (F := Ideal) (V c main_v4) (V c main_v10) :=
  (dat3 (F := Ideal) V c).arrAt_eq_of_cover 2 (Cert.Stages.nadd (F := Ideal) (V c main_v4) (V c main_v10))
    (fun t _ => flushed_eq V c t) (cover)

end Cert.KernelIdeal.Region3

end
-- ==== Proof.Region4.lean ====
/-
  The second round's messages: the 100 row blocks of the entrywise product are the entrywise product of the whole arrays.
-/
import proofs.«414585_j1666447311389_1_alg».proof.Proof.Gen.KernelIdeal.Frame
import proofs.«414585_j1666447311389_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

namespace Cert.KernelIdeal.Region4

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_origin : (![0, 0] : Fin 2 → Nat) = fun _ => 0 := funext fun a => by fin_cases a <;> rfl

/-- The body's arithmetic on its two loaded blocks: the two casts change nothing, so it is their entrywise product. -/
theorem payload_eq (x0 x1 : Vec Ideal S5000x128 .f32) : k4_pay1 (F := Ideal) x0 x1 = mulf x0 x1 := by
  unfold k4_pay1
  simp only [shapeCast_self]

/-- The block indices, decided over the grid: at every point the two input windows sit on the output window's block,
    which is row block number at most 99 and the only column block. -/
theorem block_index_facts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) ≤ 99
    ∧ win4_2.index t (1 : Fin 2) = 0 :=
  (by decide +kernel : ∀ t : Fin grid4.N, _)

/-- Every row block is some point's output block. -/
theorem block_index_onto : ∀ q : Fin 100, ∃ t : Fin cfg4.N, win4_2.index t = ![q.val, 0] :=
  (by decide +kernel : ∀ q : Fin 100, ∃ t : Fin grid4.N, win4_2.index t = ![q.val, 0])

/-- What point `t` writes back is block `t` of the entrywise product of the two whole input arrays. -/
theorem flushed_eq (c : Dev nD) (t : Fin cfg4.N) :
    (dat4 (F := Ideal) V c).flushed 2 t
      = ((cfg4.win 2).blk t).view.read (Elt Ideal) (Cert.Stages.emul (F := Ideal) (V c main_v12) (V c main_v5)) := by
  show (cfg4.win 2).cut (grid4.coords t) ((dat4 (F := Ideal) V c).after 2 t) = _
  rw [after4_2]
  unfold out4_2
  rw [View.canon_unit_zero zero_origin]
  simp only [View.ld_unit_zero (S := S5000x128) zero_origin]
  rw [payload_eq]
  obtain ⟨e0, e1, e2, e3, e4, e5⟩ := block_index_facts t
  funext j
  show FloatOps.mulf (F := Ideal) (φ := .f32) (V c main_v12 (((cfg4.win 0).blk t).view.emb j)) (V c main_v5 (((cfg4.win 1).blk t).view.emb j))
    = FloatOps.mulf (F := Ideal) (φ := .f32) (V c main_v12 (((cfg4.win 2).blk t).view.emb j)) (V c main_v5 (((cfg4.win 2).blk t).view.emb j))
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 128 + 1 * (j 1).val = win4_2.index t (1 : Fin 2) * 128 + 1 * (j 1).val; omega
  rw [h0, h1]

/-- An index of the output array is in point `t`'s block iff each coordinate is in the block's range on its axis. -/
theorem mem_block (t : Fin cfg4.N) (i : S500000x128.Idx) :
    i ∈ ((cfg4.win 2).blk t).view.set
      ↔ ∀ a : Fin 2, win4_2.index t a * S5000x128.size a ≤ (i a).val ∧ (i a).val < win4_2.index t a * S5000x128.size a + S5000x128.size a := by
  show i ∈ ((View.whole main_v13).slice (win4_2.rect t)).set ↔ _
  rw [View.set_slice_whole, Rect.mem_set_unit]
  exact Iff.rfl

/-- The 100 row blocks of 5000 rows fill the 500000 rows: row `r` is in block `r / 5000`. -/
theorem cover (i : S500000x128.Idx) :
    ∃ t : Fin cfg4.N, (cfg4.win 2).flush t = true ∧ i ∈ ((cfg4.win 2).blk t).view.set := by
  have hi0 : (i 0).val < 500000 := (i 0).isLt
  have hi1 : (i 1).val < 128 := (i 1).isLt
  obtain ⟨t, ht⟩ := block_index_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After region 4, its output array (whatever the buffers held when the region was entered: `V`) is the stage function of the
    region's input arrays as entered. -/
theorem arr (c : Dev nD) :
    (dat4 (F := Ideal) V c).arrAt 2 cfg4.N = Cert.Stages.emul (F := Ideal) (V c main_v12) (V c main_v5) :=
  (dat4 (F := Ideal) V c).arrAt_eq_of_cover 2 (Cert.Stages.emul (F := Ideal) (V c main_v12) (V c main_v5))
    (fun t _ => flushed_eq V c t) (cover)

end Cert.KernelIdeal.Region4

end
-- ==== Proof.Region5.lean ====
/-
  The second residual update: the 25 row blocks of the entrywise sum are the entrywise sum of the whole arrays.
-/
import proofs.«414585_j1666447311389_1_alg».proof.Proof.Gen.KernelIdeal.Frame
import proofs.«414585_j1666447311389_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

namespace Cert.KernelIdeal.Region5

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_origin : (![0, 0] : Fin 2 → Nat) = fun _ => 0 := funext fun a => by fin_cases a <;> rfl

/-- The body's arithmetic on its two loaded blocks: the two casts change nothing, so it is their entrywise sum. -/
theorem payload_eq (x0 x1 : Vec Ideal S2000x128 .f32) : k5_pay1 (F := Ideal) x0 x1 = addf x0 x1 := by
  unfold k5_pay1
  simp only [shapeCast_self]

/-- The block indices, decided over the grid: at every point the two input windows sit on the output window's block,
    which is row block number at most 24 and the only column block. -/
theorem block_index_facts : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 24
    ∧ win5_2.index t (1 : Fin 2) = 0 :=
  (by decide +kernel : ∀ t : Fin grid5.N, _)

/-- Every row block is some point's output block. -/
theorem block_index_onto : ∀ q : Fin 25, ∃ t : Fin cfg5.N, win5_2.index t = ![q.val, 0] :=
  (by decide +kernel : ∀ q : Fin 25, ∃ t : Fin grid5.N, win5_2.index t = ![q.val, 0])

/-- What point `t` writes back is block `t` of the entrywise sum of the two whole input arrays. -/
theorem flushed_eq (c : Dev nD) (t : Fin cfg5.N) :
    (dat5 (F := Ideal) V c).flushed 2 t
      = ((cfg5.win 2).blk t).view.read (Elt Ideal) (Cert.Stages.nadd (F := Ideal) (V c main_v11) (V c main_v16)) := by
  show (cfg5.win 2).cut (grid5.coords t) ((dat5 (F := Ideal) V c).after 2 t) = _
  rw [after5_2]
  unfold out5_2
  rw [View.canon_unit_zero zero_origin]
  simp only [View.ld_unit_zero (S := S2000x128) zero_origin]
  rw [payload_eq]
  obtain ⟨e0, e1, e2, e3, e4, e5⟩ := block_index_facts t
  funext j
  show FloatOps.addf (F := Ideal) (φ := .f32) (V c main_v11 (((cfg5.win 0).blk t).view.emb j)) (V c main_v16 (((cfg5.win 1).blk t).view.emb j))
    = FloatOps.addf (F := Ideal) (φ := .f32) (V c main_v11 (((cfg5.win 2).blk t).view.emb j)) (V c main_v16 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 2000 + 1 * (j 0).val = win5_2.index t (0 : Fin 2) * 2000 + 1 * (j 0).val; omega
    | ⟨1, _⟩ => show win5_1.index t (1 : Fin 2) * 128 + 1 * (j 1).val = win5_2.index t (1 : Fin 2) * 128 + 1 * (j 1).val; omega
  rw [h0, h1]

/-- An index of the output array is in point `t`'s block iff each coordinate is in the block's range on its axis. -/
theorem mem_block (t : Fin cfg5.N) (i : S50000x128.Idx) :
    i ∈ ((cfg5.win 2).blk t).view.set
      ↔ ∀ a : Fin 2, win5_2.index t a * S2000x128.size a ≤ (i a).val ∧ (i a).val < win5_2.index t a * S2000x128.size a + S2000x128.size a := by
  show i ∈ ((View.whole main_v17).slice (win5_2.rect t)).set ↔ _
  rw [View.set_slice_whole, Rect.mem_set_unit]
  exact Iff.rfl

/-- The 25 row blocks of 2000 rows fill the 50000 rows: row `r` is in block `r / 2000`. -/
theorem cover (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := block_index_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- After region 5, its output array (whatever the buffers held when the region was entered: `V`) is the stage function of the
    region's input arrays as entered. -/
theorem arr (c : Dev nD) :
    (dat5 (F := Ideal) V c).arrAt 2 cfg5.N = Cert.Stages.nadd (F := Ideal) (V c main_v11) (V c main_v16) :=
  (dat5 (F := Ideal) V c).arrAt_eq_of_cover 2 (Cert.Stages.nadd (F := Ideal) (V c main_v11) (V c main_v16))
    (fun t _ => flushed_eq V c t) (cover)

end Cert.KernelIdeal.Region5

end
-- ==== Proof.Spec.lean ====
/-
  One node's energy as a plain nested sum over the extended reals: three linear layers, a rectifier
  max(·, 0) before each, with weight rows contracted against the previous layer's activations.
-/
import Idealize.ShloMosaic.PureOps.Ideal
import Idealize.ShloMosaic.PureOps.Ideal.Laws

noncomputable section

namespace Cert.Spec

open Idealize.ShloMosaic

/-- The rectifier max(x, 0); the zero is kept as the word both programs spell. -/
def relu (x : EReal) : EReal := max x (Ideal.ofBits .f32 0x00000000#32)

/-- One node's energy from its embedding row `h`: Σ_j relu(Σ_k relu(Σ_l relu(h l) · w1 k l + b1 k) · w2 j k + b2 j) · w3 j. -/
def mlpRow (h : Fin 128 → EReal) (w1 : Fin 128 → Fin 128 → EReal) (b1 : Fin 128 → EReal)
    (w2 : Fin 64 → Fin 128 → EReal) (b2 : Fin 64 → EReal) (w3 : Fin 64 → EReal) : EReal :=
  ∑ j : Fin 64, relu ((∑ k : Fin 128, relu ((∑ l : Fin 128, relu (h l) * w1 k l) + b1 k) * w2 j k) + b2 j) * w3 j

end Cert.Spec

end
-- ==== Proof.MlpStage.lean ====
/-
  The reference's perceptron read at one node: the three host contractions, the bias broadcasts and
  the rectifiers, read index by index, are the nested sum `Cert.Spec.mlpRow` of that node's row.
-/
import proofs.«414585_j1666447311389_1_alg».proof.Proof.Stages
import proofs.«414585_j1666447311389_1_alg».proof.Proof.Spec
import proofs.«414585_j1666447311389_1_alg».proof.Proof.Gen.ReferenceIdeal.Read
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

namespace Cert.Stages

open Cert.ReferenceIdeal Cert.ReferenceIdeal.Facts₀ Cert.ReferenceIdeal.Facts Idealize.ShloMosaic Idealize.ShloMosaic.TcCoe

/-- The first layer's contraction at an entry: Σ_k l[a,k] · r[k,b]. -/
theorem dot128x128_apply (l : FVec Ideal S50000x128 .f32) (r : FVec Ideal S128x128 .f32) (a : Fin 50000) (b : Fin 128) :
    Host.dotGeneral dot_S50000x128_S128x128_S50000x128_1_0_0_1_n_n none l r (ValueIdx.ix2 a b)
      = ∑ k : Fin 128, l (ValueIdx.ix2 a k) * r (ValueIdx.ix2 k b) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ValueIdx.ix2 a b) ((ValueIdx.contrEquiv1 dot_S50000x128_S128x128_S50000x128_1_0_0_1_n_n 128 rfl rfl).symm k) = ValueIdx.ix2 a k := funext fun c => Fin.ext (by
    match c with
    | ⟨0, _⟩ => exact Read.lhs_main_v40_0 _ _
    | ⟨1, _⟩ => exact (Read.lhs_main_v40_1 _ _).trans hk)
  have er : dot_S50000x128_S128x128_S50000x128_1_0_0_1_n_n.rhsIdx (ValueIdx.ix2 a b) ((ValueIdx.contrEquiv1 dot_S50000x128_S128x128_S50000x128_1_0_0_1_n_n 128 rfl rfl).symm k) = ValueIdx.ix2 k b := funext fun c => Fin.ext (by
    match c with
    | ⟨0, _⟩ => exact (Read.rhs_main_v40_0 _ _).trans hk
    | ⟨1, _⟩ => exact Read.rhs_main_v40_1 _ _)
  rw [el, er]

/-- The second layer's contraction at an entry: Σ_k l[a,k] · r[k,b]. -/
theorem dot128x64_apply (l : FVec Ideal S50000x128 .f32) (r : FVec Ideal S128x64 .f32) (a : Fin 50000) (b : Fin 64) :
    Host.dotGeneral dot_S50000x128_S128x64_S50000x64_1_0_0_1_n_n none l r (ValueIdx.ix2 a b)
      = ∑ k : Fin 128, l (ValueIdx.ix2 a k) * r (ValueIdx.ix2 k b) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ValueIdx.ix2 a b) ((ValueIdx.contrEquiv1 dot_S50000x128_S128x64_S50000x64_1_0_0_1_n_n 128 rfl rfl).symm k) = ValueIdx.ix2 a k := funext fun c => Fin.ext (by
    match c with
    | ⟨0, _⟩ => exact Read.lhs_main_v46_0 _ _
    | ⟨1, _⟩ => exact (Read.lhs_main_v46_1 _ _).trans hk)
  have er : dot_S50000x128_S128x64_S50000x64_1_0_0_1_n_n.rhsIdx (ValueIdx.ix2 a b) ((ValueIdx.contrEquiv1 dot_S50000x128_S128x64_S50000x64_1_0_0_1_n_n 128 rfl rfl).symm k) = ValueIdx.ix2 k b := funext fun c => Fin.ext (by
    match c with
    | ⟨0, _⟩ => exact (Read.rhs_main_v46_0 _ _).trans hk
    | ⟨1, _⟩ => exact Read.rhs_main_v46_1 _ _)
  rw [el, er]

/-- The last layer's contraction at an entry: Σ_k l[a,k] · r[k,b]. -/
theorem dot64x1_apply (l : FVec Ideal S50000x64 .f32) (r : FVec Ideal S64x1 .f32) (a : Fin 50000) (b : Fin 1) :
    Host.dotGeneral dot_S50000x64_S64x1_S50000x1_1_0_0_1_n_n none l r (ValueIdx.ix2 a b)
      = ∑ k : Fin 64, l (ValueIdx.ix2 a k) * r (ValueIdx.ix2 k b) := by
  simp only [Host.dotGeneral]
  rw [Ideal.dotGeneral_apply, ← Equiv.sum_comp (ValueIdx.contrEquiv1 dot_S50000x64_S64x1_S50000x1_1_0_0_1_n_n 64 rfl rfl).symm]
  refine Finset.sum_congr rfl fun k _ => ?_
  have hk := ValueIdx.contrEquiv1_symm_val dot_S50000x64_S64x1_S50000x1_1_0_0_1_n_n 64 rfl rfl k
  have el : dot_S50000x64_S64x1_S50000x1_1_0_0_1_n_n.lhsIdx (ValueIdx.ix2 a b) ((ValueIdx.contrEquiv1 dot_S50000x64_S64x1_S50000x1_1_0_0_1_n_n 64 rfl rfl).symm k) = ValueIdx.ix2 a k := funext fun c => Fin.ext (by
    match c with
    | ⟨0, _⟩ => exact Read.lhs_main_v52_0 _ _
    | ⟨1, _⟩ => exact (Read.lhs_main_v52_1 _ _).trans hk)
  have er : dot_S50000x64_S64x1_S50000x1_1_0_0_1_n_n.rhsIdx (ValueIdx.ix2 a b) ((ValueIdx.contrEquiv1 dot_S50000x64_S64x1_S50000x1_1_0_0_1_n_n 64 rfl rfl).symm k) = ValueIdx.ix2 k b := funext fun c => Fin.ext (by
    match c with
    | ⟨0, _⟩ => exact (Read.rhs_main_v52_0 _ _).trans hk
    | ⟨1, _⟩ => exact Read.rhs_main_v52_1 _ _)
  rw [el, er]

/-- The first weight matrix transposed, at an entry: wᵀ[k,b] = w[b,k]. -/
theorem transpose128x128_apply (w : FVec Ideal S128x128 .f32) (k : Fin 128) (b : Fin 128) :
    transpose S128x128 [1, 0] w transposes_S128x128_S128x128_1_0 (ValueIdx.ix2 k b) = w (ValueIdx.ix2 b k) :=
  transpose_apply [1, 0] w transposes_S128x128_S128x128_1_0 (ValueIdx.ix2 k b) (ValueIdx.ix2 b k) (fun c => match c with
    | ⟨0, _⟩ => rfl
    | ⟨1, _⟩ => rfl)

/-- The second weight matrix transposed, at an entry: wᵀ[k,b] = w[b,k]. -/
theorem transpose128x64_apply (w : FVec Ideal S64x128 .f32) (k : Fin 128) (b : Fin 64) :
    transpose S128x64 [1, 0] w transposes_S64x128_S128x64_1_0 (ValueIdx.ix2 k b) = w (ValueIdx.ix2 b k) :=
  transpose_apply [1, 0] w transposes_S64x128_S128x64_1_0 (ValueIdx.ix2 k b) (ValueIdx.ix2 b k) (fun c => match c with
    | ⟨0, _⟩ => rfl
    | ⟨1, _⟩ => rfl)

/-- The last weight row transposed, at an entry: wᵀ[k,b] = w[b,k]. -/
theorem transpose64x1_apply (w : FVec Ideal S1x64 .f32) (k : Fin 64) (b : Fin 1) :
    transpose S64x1 [1, 0] w transposes_S1x64_S64x1_1_0 (ValueIdx.ix2 k b) = w (ValueIdx.ix2 b k) :=
  transpose_apply [1, 0] w transposes_S1x64_S64x1_1_0 (ValueIdx.ix2 k b) (ValueIdx.ix2 b k) (fun c => match c with
    | ⟨0, _⟩ => rfl
    | ⟨1, _⟩ => rfl)

/-- A bias vector broadcast to every row, at an entry: the bias of that column. -/
theorem bias128_apply (b : FVec Ideal S128 .f32) (a : Fin 50000) (k : Fin 128) :
    broadcastInDim S50000x128 ![0, 1] bcast_S1x128_S50000x128_0_1 (broadcastInDim S1x128 ![1] bcast_S128_S1x128_1 b) (ValueIdx.ix2 a k)
      = b (ValueIdx.ix1 k) :=
  (broadcastInDim_apply _ bcast_S1x128_S50000x128_0_1 (broadcastInDim S1x128 ![1] bcast_S128_S1x128_1 b) (ValueIdx.ix2 a k)
      (ValueIdx.ix2 (0 : Fin 1) k) (fun c => match c with
    | ⟨0, _⟩ => by show 0 = if (1 : Nat) = 1 then 0 else a.val; rw [if_pos rfl]
    | ⟨1, _⟩ => by show k.val = if (128 : Nat) = 1 then 0 else k.val; rw [if_neg (by decide)])).trans
  (broadcastInDim_apply _ bcast_S128_S1x128_1 b (ValueIdx.ix2 (0 : Fin 1) k) (ValueIdx.ix1 k) (fun c => match c with
    | ⟨0, _⟩ => by show k.val = if (128 : Nat) = 1 then 0 else k.val; rw [if_neg (by decide)]))

/-- A bias vector broadcast to every row, at an entry: the bias of that column. -/
theorem bias64_apply (b : FVec Ideal S64 .f32) (a : Fin 50000) (k : Fin 64) :
    broadcastInDim S50000x64 ![0, 1] bcast_S1x64_S50000x64_0_1 (broadcastInDim S1x64 ![1] bcast_S64_S1x64_1 b) (ValueIdx.ix2 a k)
      = b (ValueIdx.ix1 k) :=
  (broadcastInDim_apply _ bcast_S1x64_S50000x64_0_1 (broadcastInDim S1x64 ![1] bcast_S64_S1x64_1 b) (ValueIdx.ix2 a k)
      (ValueIdx.ix2 (0 : Fin 1) k) (fun c => match c with
    | ⟨0, _⟩ => by show 0 = if (1 : Nat) = 1 then 0 else a.val; rw [if_pos rfl]
    | ⟨1, _⟩ => by show k.val = if (64 : Nat) = 1 then 0 else k.val; rw [if_neg (by decide)])).trans
  (broadcastInDim_apply _ bcast_S64_S1x64_1 b (ValueIdx.ix2 (0 : Fin 1) k) (ValueIdx.ix1 k) (fun c => match c with
    | ⟨0, _⟩ => by show k.val = if (64 : Nat) = 1 then 0 else k.val; rw [if_neg (by decide)]))

/-- The rectifier of a 50000 × 128 array, at an entry: max(·, 0) of that entry. -/
theorem relu128_apply (h : FVec Ideal S50000x128 .f32) (i : S50000x128.Idx) : relu128 h i = Cert.Spec.relu (h i) := by
  unfold relu128 Cert.Spec.relu
  rw [ValueIdx.maximumf_apply]
  exact congrArg (max (h i)) ((broadcastInDim_apply _ bcast_S_S50000x128 (constant (F := Ideal) S_ .f32 0x00000000#32) i
    (fun a => a.elim0) (fun a => a.elim0)).trans rfl)

/-- The rectifier of a 50000 × 64 array, at an entry: max(·, 0) of that entry. -/
theorem relu64_apply (h : FVec Ideal S50000x64 .f32) (i : S50000x64.Idx) : relu64 h i = Cert.Spec.relu (h i) := by
  unfold relu64 Cert.Spec.relu
  rw [ValueIdx.maximumf_apply]
  exact congrArg (max (h i)) ((broadcastInDim_apply _ bcast_S_S50000x64 (constant (F := Ideal) S_ .f32 0x00000000#32) i
    (fun a => a.elim0) (fun a => a.elim0)).trans rfl)

/-- Node `r`'s energy as the reference's host operations compute it is the nested sum of row `r`. -/
theorem mlp_apply (h : FVec Ideal S50000x128 .f32) (w1 : FVec Ideal S128x128 .f32) (b1 : FVec Ideal S128 .f32)
    (w2 : FVec Ideal S64x128 .f32) (b2 : FVec Ideal S64 .f32) (w3 : FVec Ideal S1x64 .f32) (r : Fin 50000) :
    mlp (F := Ideal) h w1 b1 w2 b2 w3 (ValueIdx.ix2 r (0 : Fin 1))
      = Cert.Spec.mlpRow (fun l => h (ValueIdx.ix2 r l)) (fun k l => w1 (ValueIdx.ix2 k l)) (fun k => b1 (ValueIdx.ix1 k))
          (fun j k => w2 (ValueIdx.ix2 j k)) (fun j => b2 (ValueIdx.ix1 j)) (fun j => w3 (ValueIdx.ix2 (0 : Fin 1) j)) := by
  unfold mlp Cert.Spec.mlpRow
  rw [dot64x1_apply]
  refine Finset.sum_congr rfl fun j _ => ?_
  rw [transpose64x1_apply, relu64_apply, ValueIdx.addf_apply, bias64_apply, dot128x64_apply]
  refine congrArg (fun t => Cert.Spec.relu (t + b2 (ValueIdx.ix1 j)) * w3 (ValueIdx.ix2 (0 : Fin 1) j)) (Finset.sum_congr rfl fun k _ => ?_)
  rw [transpose128x64_apply, relu128_apply, ValueIdx.addf_apply, bias128_apply, dot128x128_apply]
  refine congrArg (fun t => Cert.Spec.relu (t + b1 (ValueIdx.ix1 k)) * w2 (ValueIdx.ix2 j k)) (Finset.sum_congr rfl fun l _ => ?_)
  rw [transpose128x128_apply, relu128_apply]

end Cert.Stages

end
-- ==== Proof.Region6.lean ====
/-
  The energy perceptron: each of the 25 blocks of 2000 node energies is computed from its own 2000 rows of the node embedding, so together they are the perceptron of the whole array.
-/
import proofs.«414585_j1666447311389_1_alg».proof.Proof.Gen.KernelIdeal.Frame
import proofs.«414585_j1666447311389_1_alg».proof.Proof.Stages
import proofs.«414585_j1666447311389_1_alg».proof.Proof.Spec
import proofs.«414585_j1666447311389_1_alg».proof.Proof.MlpStage
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

namespace Cert.KernelIdeal.Region6

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The three contractions read at an index -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The first layer's contraction at row `p`, column `k`: the sum over `l` of the left operand's row times the right operand's column. -/
theorem matmulA_apply (a : FVec Ideal S2000x128 .bf16) (b : FVec Ideal S128x128 .bf16) (p : Fin 2000) (k : Fin 128) :
    matmul dot_S2000x128_S128x128_S2000x128_1_0_0_1_n_n none a b (constant (F := Ideal) S2000x128 .f32 0x00000000#32) (ValueIdx.ix2 p k)
      = ∑ l : Fin 128, a (ValueIdx.ix2 p l) * b (ValueIdx.ix2 l k) := by
  show FloatOps.matmul dot_S2000x128_S128x128_S2000x128_1_0_0_1_n_n none a b (constant (F := Ideal) S2000x128 .f32 0x00000000#32) (ValueIdx.ix2 p k) = _
  rw [Ideal.matmul_constant_zero_apply, ← Equiv.sum_comp (ValueIdx.contrEquiv1 dot_S2000x128_S128x128_S2000x128_1_0_0_1_n_n 128 rfl rfl).symm]
  refine Finset.sum_congr rfl fun l _ => ?_
  have hl := ValueIdx.contrEquiv1_symm_val dot_S2000x128_S128x128_S2000x128_1_0_0_1_n_n 128 rfl rfl l
  have el : dot_S2000x128_S128x128_S2000x128_1_0_0_1_n_n.lhsIdx (ValueIdx.ix2 p k) ((ValueIdx.contrEquiv1 dot_S2000x128_S128x128_S2000x128_1_0_0_1_n_n 128 rfl rfl).symm l) = ValueIdx.ix2 p l := funext fun a => Fin.ext (by
    match a with
    | ⟨0, _⟩ => exact lhsA_0 _ _
    | ⟨1, _⟩ => exact (lhsA_1 _ _).trans hl)
  have er : dot_S2000x128_S128x128_S2000x128_1_0_0_1_n_n.rhsIdx (ValueIdx.ix2 p k) ((ValueIdx.contrEquiv1 dot_S2000x128_S128x128_S2000x128_1_0_0_1_n_n 128 rfl rfl).symm l) = ValueIdx.ix2 l k := funext fun a => Fin.ext (by
    match a with
    | ⟨0, _⟩ => exact (rhsA_0 _ _).trans hl
    | ⟨1, _⟩ => exact rhsA_1 _ _)
  rw [el, er]

theorem lhsB_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhsB_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhsB_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhsB_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The second layer's contraction at row `p`, column `k`. -/
theorem matmulB_apply (a : FVec Ideal S2000x128 .bf16) (b : FVec Ideal S128x64 .bf16) (p : Fin 2000) (k : Fin 64) :
    matmul dot_S2000x128_S128x64_S2000x64_1_0_0_1_n_n none a b (constant (F := Ideal) S2000x64 .f32 0x00000000#32) (ValueIdx.ix2 p k)
      = ∑ l : Fin 128, a (ValueIdx.ix2 p l) * b (ValueIdx.ix2 l k) := by
  show FloatOps.matmul dot_S2000x128_S128x64_S2000x64_1_0_0_1_n_n none a b (constant (F := Ideal) S2000x64 .f32 0x00000000#32) (ValueIdx.ix2 p k) = _
  rw [Ideal.matmul_constant_zero_apply, ← Equiv.sum_comp (ValueIdx.contrEquiv1 dot_S2000x128_S128x64_S2000x64_1_0_0_1_n_n 128 rfl rfl).symm]
  refine Finset.sum_congr rfl fun l _ => ?_
  have hl := ValueIdx.contrEquiv1_symm_val dot_S2000x128_S128x64_S2000x64_1_0_0_1_n_n 128 rfl rfl l
  have el : dot_S2000x128_S128x64_S2000x64_1_0_0_1_n_n.lhsIdx (ValueIdx.ix2 p k) ((ValueIdx.contrEquiv1 dot_S2000x128_S128x64_S2000x64_1_0_0_1_n_n 128 rfl rfl).symm l) = ValueIdx.ix2 p l := funext fun a => Fin.ext (by
    match a with
    | ⟨0, _⟩ => exact lhsB_0 _ _
    | ⟨1, _⟩ => exact (lhsB_1 _ _).trans hl)
  have er : dot_S2000x128_S128x64_S2000x64_1_0_0_1_n_n.rhsIdx (ValueIdx.ix2 p k) ((ValueIdx.contrEquiv1 dot_S2000x128_S128x64_S2000x64_1_0_0_1_n_n 128 rfl rfl).symm l) = ValueIdx.ix2 l k := funext fun a => Fin.ext (by
    match a with
    | ⟨0, _⟩ => exact (rhsB_0 _ _).trans hl
    | ⟨1, _⟩ => exact rhsB_1 _ _)
  rw [el, er]

theorem lhsC_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem lhsC_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
theorem rhsC_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
theorem rhsC_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- The third layer's contraction at row `p`, its one column. -/
theorem matmulC_apply (a : FVec Ideal S2000x64 .bf16) (b : FVec Ideal S64x1 .bf16) (p : Fin 2000) (k : Fin 1) :
    matmul dot_S2000x64_S64x1_S2000x1_1_0_0_1_n_n none a b (constant (F := Ideal) S2000x1 .f32 0x00000000#32) (ValueIdx.ix2 p k)
      = ∑ l : Fin 64, a (ValueIdx.ix2 p l) * b (ValueIdx.ix2 l k) := by
  show FloatOps.matmul dot_S2000x64_S64x1_S2000x1_1_0_0_1_n_n none a b (constant (F := Ideal) S2000x1 .f32 0x00000000#32) (ValueIdx.ix2 p k) = _
  rw [Ideal.matmul_constant_zero_apply, ← Equiv.sum_comp (ValueIdx.contrEquiv1 dot_S2000x64_S64x1_S2000x1_1_0_0_1_n_n 64 rfl rfl).symm]
  refine Finset.sum_congr rfl fun l _ => ?_
  have hl := ValueIdx.contrEquiv1_symm_val dot_S2000x64_S64x1_S2000x1_1_0_0_1_n_n 64 rfl rfl l
  have el : dot_S2000x64_S64x1_S2000x1_1_0_0_1_n_n.lhsIdx (ValueIdx.ix2 p k) ((ValueIdx.contrEquiv1 dot_S2000x64_S64x1_S2000x1_1_0_0_1_n_n 64 rfl rfl).symm l) = ValueIdx.ix2 p l := funext fun a => Fin.ext (by
    match a with
    | ⟨0, _⟩ => exact lhsC_0 _ _
    | ⟨1, _⟩ => exact (lhsC_1 _ _).trans hl)
  have er : dot_S2000x64_S64x1_S2000x1_1_0_0_1_n_n.rhsIdx (ValueIdx.ix2 p k) ((ValueIdx.contrEquiv1 dot_S2000x64_S64x1_S2000x1_1_0_0_1_n_n 64 rfl rfl).symm l) = ValueIdx.ix2 l k := funext fun a => Fin.ext (by
    match a with
    | ⟨0, _⟩ => exact (rhsC_0 _ _).trans hl
    | ⟨1, _⟩ => exact rhsC_1 _ _)
  rw [el, er]

/-! ## The layout operations read at an index -/

/-- The transposed first weight at (l, k) is the weight at (k, l). -/
theorem transposeA_apply (y : FVec Ideal S128x128 .bf16) (l k : Fin 128) :
    transpose S128x128 [1, 0] y transposes_S128x128_p1_0_S128x128 (ValueIdx.ix2 l k) = y (ValueIdx.ix2 k l) :=
  transpose_apply [1, 0] y transposes_S128x128_p1_0_S128x128 (ValueIdx.ix2 l k) (ValueIdx.ix2 k l) (fun b => match b with
    | ⟨0, _⟩ => rfl
    | ⟨1, _⟩ => rfl)

/-- The transposed second weight at (k, j) is the weight at (j, k). -/
theorem transposeB_apply (y : FVec Ideal S64x128 .bf16) (k : Fin 128) (j : Fin 64) :
    transpose S128x64 [1, 0] y transposes_S64x128_p1_0_S128x64 (ValueIdx.ix2 k j) = y (ValueIdx.ix2 j k) :=
  transpose_apply [1, 0] y transposes_S64x128_p1_0_S128x64 (ValueIdx.ix2 k j) (ValueIdx.ix2 j k) (fun b => match b with
    | ⟨0, _⟩ => rfl
    | ⟨1, _⟩ => rfl)

/-- The transposed third weight at (j, 0) is the weight at (0, j). -/
theorem transposeC_apply (y : FVec Ideal S1x64 .bf16) (j : Fin 64) (o : Fin 1) :
    transpose S64x1 [1, 0] y transposes_S1x64_p1_0_S64x1 (ValueIdx.ix2 j o) = y (ValueIdx.ix2 o j) :=
  transpose_apply [1, 0] y transposes_S1x64_p1_0_S64x1 (ValueIdx.ix2 j o) (ValueIdx.ix2 o j) (fun b => match b with
    | ⟨0, _⟩ => rfl
    | ⟨1, _⟩ => rfl)

/-- The first bias as a row, repeated down the 2000 rows: at (p, k) it is the bias at k. -/
theorem biasA_apply (x : Vec Ideal S128 .f32) (p : Fin 2000) (k : Fin 128) :
    broadcastTo S2000x128 (shapeCast S1x128 x shapeCasts_S128_S1x128) broadcasts_S1x128_S2000x128 (ValueIdx.ix2 p k) = x (ValueIdx.ix1 k) := by
  generalize hy : shapeCast S1x128 x shapeCasts_S128_S1x128 = y
  rw [broadcastTo_apply y broadcasts_S1x128_S2000x128 (ValueIdx.ix2 p k) (ValueIdx.ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])]
  subst hy
  exact shapeCast_apply x shapeCasts_S128_S1x128 (ValueIdx.ix2 (0 : Fin 1) k) (ValueIdx.ix1 k)
    (by rewrite [Shape.rowMajor_val_two, Shape.rowMajor_val_one]; show k.val = 0 * 128 + k.val; omega)

/-- The second bias as a row, repeated down the 2000 rows: at (p, j) it is the bias at j. -/
theorem biasB_apply (x : Vec Ideal S64 .f32) (p : Fin 2000) (j : Fin 64) :
    broadcastTo S2000x64 (shapeCast S1x64 x shapeCasts_S64_S1x64) broadcasts_S1x64_S2000x64 (ValueIdx.ix2 p j) = x (ValueIdx.ix1 j) := by
  generalize hy : shapeCast S1x64 x shapeCasts_S64_S1x64 = y
  rw [broadcastTo_apply y broadcasts_S1x64_S2000x64 (ValueIdx.ix2 p j) (ValueIdx.ix2 (0 : Fin 1) j) (fun a => match a with
    | ⟨0, _⟩ => by show 0 = if (1 : Nat) = 1 then 0 else p.val; rw [if_pos rfl]
    | ⟨1, _⟩ => by show j.val = if (64 : Nat) = 1 then 0 else j.val; rw [if_neg (by decide)])]
  subst hy
  exact shapeCast_apply x shapeCasts_S64_S1x64 (ValueIdx.ix2 (0 : Fin 1) j) (ValueIdx.ix1 j)
    (by rewrite [Shape.rowMajor_val_two, Shape.rowMajor_val_one]; show j.val = 0 * 64 + j.val; omega)

/-! ## The block's payload at a row -/

/-- One block: row `p` of the 2000 energies the body stores is the nested sum of row `p` of the loaded embedding block
    against the three loaded weights and two biases. -/
theorem pay_apply (x0 : Vec Ideal S2000x128 .f32) (x1 : Vec Ideal S128x128 .f32) (x2 : Vec Ideal S128 .f32)
    (x3 : Vec Ideal S64x128 .f32) (x4 : Vec Ideal S64 .f32) (x5 : Vec Ideal S1x64 .f32) (p : Fin 2000) :
    k6_pay1 (F := Ideal) x0 x1 x2 x3 x4 x5 (ValueIdx.ix2 p (0 : Fin 1))
      = Cert.Spec.mlpRow (fun l => x0 (ValueIdx.ix2 p l)) (fun k l => x1 (ValueIdx.ix2 k l)) (fun k => x2 (ValueIdx.ix1 k))
          (fun j k => x3 (ValueIdx.ix2 j k)) (fun j => x4 (ValueIdx.ix1 j)) (fun j => x5 (ValueIdx.ix2 (0 : Fin 1) j)) := by
  unfold k6_pay1 Cert.Spec.mlpRow Cert.Spec.relu
  rw [matmulC_apply]
  refine Finset.sum_congr rfl fun j _ => ?_
  rw [transposeC_apply, ValueIdx.truncf_apply, ValueIdx.truncf_apply, ValueIdx.maximumf_apply, ValueIdx.addf_apply,
    ValueIdx.broadcast_apply, biasB_apply, matmulB_apply]
  refine congrArg₂ (· * ·) (congrArg₂ max (congrArg₂ (· + ·) (Finset.sum_congr rfl fun k _ => ?_) rfl) rfl) rfl
  rw [transposeB_apply, ValueIdx.truncf_apply, ValueIdx.truncf_apply, ValueIdx.maximumf_apply, ValueIdx.addf_apply,
    ValueIdx.broadcast_apply, biasA_apply, matmulA_apply]
  refine congrArg₂ (· * ·) (congrArg₂ max (congrArg₂ (· + ·) (Finset.sum_congr rfl fun l _ => ?_) rfl) rfl) rfl
  rw [transposeA_apply, ValueIdx.truncf_apply, ValueIdx.truncf_apply, ValueIdx.maximumf_apply, shapeCast_self,
    ValueIdx.broadcast_apply]
  rfl

/-! ## From the 25 blocks to the array -/

theorem hz : (![0, 0] : Fin 2 → Nat) = fun _ => 0 := funext fun a => by fin_cases a <;> rfl

theorem hz1 : (![0] : Fin 1 → Nat) = fun _ => 0 := funext fun a => by fin_cases a; rfl

/-- The printed index maps, decided over the grid: point `t` takes block row `t` of the embedding and of the energies,
    and the whole of each weight and bias. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Row `p` of point `t`'s embedding block is row `t · 2000 + p` of the embedding. -/
theorem blk0 (c : Dev nD) (t : Fin cfg6.N) (p : Fin 2000) (l : Fin 128) (h : t.val * 2000 + p.val < 50000) :
    iblk6 (F := Ideal) V c 0 t (ValueIdx.ix2 p l) = V c main_v17 (ValueIdx.ix2 (⟨t.val * 2000 + p.val, h⟩ : Fin 50000) l) := by
  show V c main_v17 (((cfg6.win 0).blk t).view.emb (ValueIdx.ix2 p l)) = _
  obtain ⟨e0, e1, -⟩ := idx_facts t
  refine congrArg (V c main_v17) (funext fun a => Fin.ext ?_)
  match a with
  | ⟨0, _⟩ => show win6_0.index t (0 : Fin 2) * 2000 + 1 * p.val = t.val * 2000 + p.val; omega
  | ⟨1, _⟩ => show win6_0.index t (1 : Fin 2) * 128 + 1 * l.val = l.val; omega

/-- Every point's block of the first weight is the weight. -/
theorem blk1 (c : Dev nD) (t : Fin cfg6.N) (k l : Fin 128) :
    iblk6 (F := Ideal) V c 1 t (ValueIdx.ix2 k l) = V c main_arg8 (ValueIdx.ix2 k l) := by
  show V c main_arg8 (((cfg6.win 1).blk t).view.emb (ValueIdx.ix2 k l)) = _
  obtain ⟨-, -, e0, e1, -⟩ := idx_facts t
  refine congrArg (V c main_arg8) (funext fun a => Fin.ext ?_)
  match a with
  | ⟨0, _⟩ => show win6_1.index t (0 : Fin 2) * 128 + 1 * k.val = k.val; omega
  | ⟨1, _⟩ => show win6_1.index t (1 : Fin 2) * 128 + 1 * l.val = l.val; omega

/-- Every point's block of the first bias is the bias. -/
theorem blk2 (c : Dev nD) (t : Fin cfg6.N) (k : Fin 128) :
    iblk6 (F := Ideal) V c 2 t (ValueIdx.ix1 k) = V c main_arg9 (ValueIdx.ix1 k) := by
  show V c main_arg9 (((cfg6.win 2).blk t).view.emb (ValueIdx.ix1 k)) = _
  obtain ⟨-, -, -, -, e0, -⟩ := idx_facts t
  refine congrArg (V c main_arg9) (funext fun a => Fin.ext ?_)
  match a with
  | ⟨0, _⟩ => show win6_2.index t (0 : Fin 1) * 128 + 1 * k.val = k.val; omega

/-- Every point's block of the second weight is the weight. -/
theorem blk3 (c : Dev nD) (t : Fin cfg6.N) (j : Fin 64) (k : Fin 128) :
    iblk6 (F := Ideal) V c 3 t (ValueIdx.ix2 j k) = V c main_arg10 (ValueIdx.ix2 j k) := by
  show V c main_arg10 (((cfg6.win 3).blk t).view.emb (ValueIdx.ix2 j k)) = _
  obtain ⟨-, -, -, -, -, e0, e1, -⟩ := idx_facts t
  refine congrArg (V c main_arg10) (funext fun a => Fin.ext ?_)
  match a with
  | ⟨0, _⟩ => show win6_3.index t (0 : Fin 2) * 64 + 1 * j.val = j.val; omega
  | ⟨1, _⟩ => show win6_3.index t (1 : Fin 2) * 128 + 1 * k.val = k.val; omega

/-- Every point's block of the second bias is the bias. -/
theorem blk4 (c : Dev nD) (t : Fin cfg6.N) (j : Fin 64) :
    iblk6 (F := Ideal) V c 4 t (ValueIdx.ix1 j) = V c main_arg11 (ValueIdx.ix1 j) := by
  show V c main_arg11 (((cfg6.win 4).blk t).view.emb (ValueIdx.ix1 j)) = _
  obtain ⟨-, -, -, -, -, -, -, e0, -⟩ := idx_facts t
  refine congrArg (V c main_arg11) (funext fun a => Fin.ext ?_)
  match a with
  | ⟨0, _⟩ => show win6_4.index t (0 : Fin 1) * 64 + 1 * j.val = j.val; omega

/-- Every point's block of the third weight is the weight. -/
theorem blk5 (c : Dev nD) (t : Fin cfg6.N) (o : Fin 1) (j : Fin 64) :
    iblk6 (F := Ideal) V c 5 t (ValueIdx.ix2 o j) = V c main_arg12 (ValueIdx.ix2 o j) := by
  show V c main_arg12 (((cfg6.win 5).blk t).view.emb (ValueIdx.ix2 o j)) = _
  obtain ⟨-, -, -, -, -, -, -, -, e0, e1, -⟩ := idx_facts t
  refine congrArg (V c main_arg12) (funext fun a => Fin.ext ?_)
  match a with
  | ⟨0, _⟩ => show win6_5.index t (0 : Fin 2) * 1 + 1 * o.val = o.val; omega
  | ⟨1, _⟩ => show win6_5.index t (1 : Fin 2) * 64 + 1 * j.val = j.val; omega

/-- What point `t` writes back is block `t` of the perceptron of the whole arrays. -/
theorem flushed_eq (c : Dev nD) (t : Fin cfg6.N) :
    (dat6 (F := Ideal) V c).flushed 6 t = ((cfg6.win 6).blk t).view.read (Elt Ideal)
      (Cert.Stages.mlp (F := Ideal) (V c main_v17) (V c main_arg8) (V c main_arg9) (V c main_arg10) (V c main_arg11) (V c main_arg12)) := by
  show (cfg6.win 6).cut (grid6.coords t) ((dat6 V c).after 6 t) = _
  rw [after6_6]
  unfold out6_6
  rw [View.canon_unit_zero hz]
  simp only [View.ld_unit_zero (S := S2000x128) hz, View.ld_unit_zero (S := S128x128) hz, View.ld_unit_zero (S := S128) hz1,
    View.ld_unit_zero (S := S64x128) hz, View.ld_unit_zero (S := S64) hz1, View.ld_unit_zero (S := S1x64) hz]
  funext j
  have ht : t.val < 25 := lt_of_lt_of_eq t.isLt N_6
  have hj0 : (j 0).val < 2000 := (j 0).isLt
  obtain ⟨p, o, rfl⟩ : ∃ (p : Fin 2000) (o : Fin 1), j = ValueIdx.ix2 p o := ⟨j 0, j 1, ValueIdx.eq_ix2 j⟩
  obtain rfl : o = 0 := Subsingleton.elim _ _
  have hr : t.val * 2000 + p.val < 50000 := by have := p.isLt; omega
  obtain ⟨-, -, -, -, -, -, -, -, -, -, e0, e1⟩ := idx_facts t
  have he : ((cfg6.win 6).blk t).view.emb (ValueIdx.ix2 p (0 : Fin 1)) = ValueIdx.ix2 (⟨t.val * 2000 + p.val, hr⟩ : Fin 50000) (0 : Fin 1) := by
    funext a; apply Fin.ext
    match a with
    | ⟨0, _⟩ => show win6_6.index t (0 : Fin 2) * 2000 + 1 * p.val = t.val * 2000 + p.val; omega
    | ⟨1, _⟩ => show win6_6.index t (1 : Fin 2) * 1 + 1 * 0 = 0; omega
  show k6_pay1 (F := Ideal) (iblk6 V c 0 t) (iblk6 V c 1 t) (iblk6 V c 2 t) (iblk6 V c 3 t) (iblk6 V c 4 t) (iblk6 V c 5 t) (ValueIdx.ix2 p (0 : Fin 1))
    = Cert.Stages.mlp (F := Ideal) (V c main_v17) (V c main_arg8) (V c main_arg9) (V c main_arg10) (V c main_arg11) (V c main_arg12)
        (((cfg6.win 6).blk t).view.emb (ValueIdx.ix2 p (0 : Fin 1)))
  rw [he, pay_apply, Cert.Stages.mlp_apply]
  have a0 : (fun l => iblk6 (F := Ideal) V c 0 t (ValueIdx.ix2 p l)) = fun l => V c main_v17 (ValueIdx.ix2 (⟨t.val * 2000 + p.val, hr⟩ : Fin 50000) l) :=
    funext fun l => blk0 V c t p l hr
  have a1 : (fun k l => iblk6 (F := Ideal) V c 1 t (ValueIdx.ix2 k l)) = fun k l => V c main_arg8 (ValueIdx.ix2 k l) :=
    funext fun k => funext fun l => blk1 V c t k l
  have a2 : (fun k => iblk6 (F := Ideal) V c 2 t (ValueIdx.ix1 k)) = fun k => V c main_arg9 (ValueIdx.ix1 k) :=
    funext fun k => blk2 V c t k
  have a3 : (fun j k => iblk6 (F := Ideal) V c 3 t (ValueIdx.ix2 j k)) = fun j k => V c main_arg10 (ValueIdx.ix2 j k) :=
    funext fun j => funext fun k => blk3 V c t j k
  have a4 : (fun j => iblk6 (F := Ideal) V c 4 t (ValueIdx.ix1 j)) = fun j => V c main_arg11 (ValueIdx.ix1 j) :=
    funext fun j => blk4 V c t j
  have a5 : (fun j => iblk6 (F := Ideal) V c 5 t (ValueIdx.ix2 (0 : Fin 1) j)) = fun j => V c main_arg12 (ValueIdx.ix2 (0 : Fin 1) j) :=
    funext fun j => blk5 V c t 0 j
  rw [a0, a1, a2, a3, a4, a5]

/-- An index of the energies is in point `t`'s block iff each coordinate is in the block's range on its axis. -/
theorem mem_blk (t : Fin cfg6.N) (i : S50000x1.Idx) :
    i ∈ ((cfg6.win 6).blk t).view.set ↔ ∀ a : Fin 2, win6_6.index t a * S2000x1.size a ≤ (i a).val ∧ (i a).val < win6_6.index t a * S2000x1.size a + S2000x1.size a := by
  show i ∈ ((View.whole main_v18).slice (win6_6.rect t)).set ↔ _
  rw [View.set_slice_whole, Rect.mem_set_unit]
  exact Iff.rfl

/-- Row `r` of the energies is in the block of point `r / 2000`: the 25 blocks of 2000 rows fill the 50000 rows. -/
theorem cover (i : S50000x1.Idx) : ∃ t : Fin cfg6.N, (cfg6.win 6).flush t = true ∧ i ∈ ((cfg6.win 6).blk t).view.set := by
  have hi0 : (i 0).val < 50000 := (i 0).isLt
  have hi1 : (i 1).val < 1 := (i 1).isLt
  have hN : (i 0).val / 2000 < cfg6.N := lt_of_lt_of_eq (show (i 0).val / 2000 < 25 by omega) N_6.symm
  refine ⟨⟨(i 0).val / 2000, hN⟩, flush6_6 _, ?_⟩
  rw [mem_blk]
  obtain ⟨-, -, -, -, -, -, -, -, -, -, e0, e1⟩ := idx_facts ⟨(i 0).val / 2000, hN⟩
  intro a
  match a with
  | ⟨0, _⟩ =>
    show win6_6.index ⟨(i 0).val / 2000, hN⟩ (0 : Fin 2) * 2000 ≤ (i 0).val ∧ (i 0).val < win6_6.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win6_6.index ⟨(i 0).val / 2000, hN⟩ (1 : Fin 2) * 1 ≤ (i 1).val ∧ (i 1).val < win6_6.index ⟨(i 0).val / 2000, hN⟩ (1 : Fin 2) * 1 + 1
    rw [e1]
    omega

/-- After region 6, its output array (whatever the buffers held when the region was entered: `V`) is the stage function of the
    region's input arrays as entered. -/
theorem arr (c : Dev nD) :
    (dat6 (F := Ideal) V c).arrAt 6 cfg6.N = Cert.Stages.mlp (F := Ideal) (V c main_v17) (V c main_arg8) (V c main_arg9) (V c main_arg10) (V c main_arg11) (V c main_arg12) :=
  (dat6 (F := Ideal) V c).arrAt_eq_of_cover 6 _ (fun t _ => flushed_eq V c t) cover

end Cert.KernelIdeal.Region6

end
-- ==== Proof.Fold.lean ====
/-
  The kernel program's result, read back through its thirteen segments. Each host stretch is read as
  its operations applied to the buffers it finds; each kernel region leaves in its output array the
  stage function of its input arrays; a buffer nobody writes in a segment is carried across it. From
  the launch memory: the source and destination rows of the edge list, the node and edge embeddings,
  two rounds of message passing (the gathered rows are the reference's when every source index is a
  node index), the perceptron, and the sum per graph — the composition `Cert.Stages.total` of the
  thirteen arguments.
-/
import proofs.«414585_j1666447311389_1_alg».proof.Proof.Gen.KernelIdeal.Frame
import proofs.«414585_j1666447311389_1_alg».proof.Proof.Stages
import proofs.«414585_j1666447311389_1_alg».proof.Proof.Take
import proofs.«414585_j1666447311389_1_alg».proof.Proof.Region0
import proofs.«414585_j1666447311389_1_alg».proof.Proof.Region1
import proofs.«414585_j1666447311389_1_alg».proof.Proof.Region2
import proofs.«414585_j1666447311389_1_alg».proof.Proof.Region3
import proofs.«414585_j1666447311389_1_alg».proof.Proof.Region4
import proofs.«414585_j1666447311389_1_alg».proof.Proof.Region5
import proofs.«414585_j1666447311389_1_alg».proof.Proof.Region6
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic
import Idealize.ShloMosaic.Lib.StableHlo.Run

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The source node of every edge, from the launch memory. -/
def src : IVec S500000 32 := Cert.Stages.srcOf (m ((c.tc : Thread nD τ).loc main_arg2))
/-- The destination node of every edge, from the launch memory. -/
def dst : IVec S500000 32 := Cert.Stages.dstOf (m ((c.tc : Thread nD τ).loc main_arg2))
/-- The node embedding x · Waᵀ + ba. -/
def node0 : FVec Ideal S50000x128 .f32 :=
  Cert.Stages.lin0 (F := Ideal) (m ((c.tc : Thread nD τ).loc main_arg0)) (m ((c.tc : Thread nD τ).loc main_arg4)) (m ((c.tc : Thread nD τ).loc main_arg5))
/-- The edge embedding edge_attr · Wbᵀ + bb. -/
def edge : FVec Ideal S500000x128 .f32 :=
  Cert.Stages.lin1 (F := Ideal) (m ((c.tc : Thread nD τ).loc main_arg1)) (m ((c.tc : Thread nD τ).loc main_arg6)) (m ((c.tc : Thread nD τ).loc main_arg7))
/-- The node embedding after one round of message passing. -/
def node1 : FVec Ideal S50000x128 .f32 := Cert.Stages.layer (F := Ideal) (node0 m c) (edge m c) (src m c) (dst m c)
/-- The node embedding after two rounds. -/
def node2 : FVec Ideal S50000x128 .f32 := Cert.Stages.layer (F := Ideal) (node1 m c) (edge m c) (src m c) (dst m c)

/-! ## The first host stretch: the two rows of the edge list -/

theorem w1_v1 : W1 m ρ c (Proc.devRef .tc main_v1) = src m c := by
  show StableHlo.after hostOps0 (W0 m ρ c) (Proc.devRef .tc main_v1) = _
  after_results_simp
  rfl
theorem w1_v3 : W1 m ρ c (Proc.devRef .tc main_v3) = dst m c := by
  show StableHlo.after hostOps0 (W0 m ρ c) (Proc.devRef .tc main_v3) = _
  after_results_simp
  rfl
theorem v1_arg0 : V1 m ρ c main_arg0 = m ((c.tc : Thread nD τ).loc main_arg0) := by
  show StableHlo.after hostOps0 (W0 m ρ c) (Proc.devRef .tc main_arg0) = _
  after_results_simp
theorem v1_arg4 : V1 m ρ c main_arg4 = m ((c.tc : Thread nD τ).loc main_arg4) := by
  show StableHlo.after hostOps0 (W0 m ρ c) (Proc.devRef .tc main_arg4) = _
  after_results_simp
theorem v1_arg5 : V1 m ρ c main_arg5 = m ((c.tc : Thread nD τ).loc main_arg5) := by
  show StableHlo.after hostOps0 (W0 m ρ c) (Proc.devRef .tc main_arg5) = _
  after_results_simp

/-! ## Region 0: the node embedding -/

theorem w2_v4 : W2 m ρ c (Proc.devRef .tc main_v4) = node0 m c := by
  refine (W2_arr m ρ c 3).trans ((Cert.KernelIdeal.Region0.arr (V1 m ρ) c).trans ?_)
  rw [v1_arg0 m ρ c, v1_arg4 m ρ c, v1_arg5 m ρ c]
  rfl

/-! ## Region 1: the edge embedding -/
theorem v2_arg1 : V2 m ρ c main_arg1 = m ((c.tc : Thread nD τ).loc main_arg1) := by
  refine (W2_of_ne m ρ c main_arg1 (by decide)).trans ?_
  show StableHlo.after hostOps0 (W0 m ρ c) (Proc.devRef .tc main_arg1) = _
  after_results_simp
theorem v2_arg6 : V2 m ρ c main_arg6 = m ((c.tc : Thread nD τ).loc main_arg6) := by
  refine (W2_of_ne m ρ c main_arg6 (by decide)).trans ?_
  show StableHlo.after hostOps0 (W0 m ρ c) (Proc.devRef .tc main_arg6) = _
  after_results_simp
theorem v2_arg7 : V2 m ρ c main_arg7 = m ((c.tc : Thread nD τ).loc main_arg7) := by
  refine (W2_of_ne m ρ c main_arg7 (by decide)).trans ?_
  show StableHlo.after hostOps0 (W0 m ρ c) (Proc.devRef .tc main_arg7) = _
  after_results_simp

theorem w3_v5 : W3 m ρ c (Proc.devRef .tc main_v5) = edge m c := by
  refine (W3_arr m ρ c 3).trans ((Cert.KernelIdeal.Region1.arr (V2 m ρ) c).trans ?_)
  rw [v2_arg1 m ρ c, v2_arg6 m ρ c, v2_arg7 m ρ c]
  rfl
theorem w3_v4 : W3 m ρ c (Proc.devRef .tc main_v4) = node0 m c :=
  (W3_of_ne m ρ c main_v4 (by decide)).trans (w2_v4 m ρ c)
theorem w3_v1 : W3 m ρ c (Proc.devRef .tc main_v1) = src m c :=
  (W3_of_ne m ρ c main_v1 (by decide)).trans ((W2_of_ne m ρ c main_v1 (by decide)).trans (w1_v1 m ρ c))
theorem w3_v3 : W3 m ρ c (Proc.devRef .tc main_v3) = dst m c :=
  (W3_of_ne m ρ c main_v3 (by decide)).trans ((W2_of_ne m ρ c main_v3 (by decide)).trans (w1_v3 m ρ c))

/-! ## The first gather -/
theorem w4_keep_v5 : W4 m ρ c (Proc.devRef .tc main_v5) = W3 m ρ c (Proc.devRef .tc main_v5) := by
  show StableHlo.after hostOps2 (W3 m ρ c) (Proc.devRef .tc main_v5) = _
  after_results_simp
theorem w4_keep_v3 : W4 m ρ c (Proc.devRef .tc main_v3) = W3 m ρ c (Proc.devRef .tc main_v3) := by
  show StableHlo.after hostOps2 (W3 m ρ c) (Proc.devRef .tc main_v3) = _
  after_results_simp
theorem w4_keep_v1 : W4 m ρ c (Proc.devRef .tc main_v1) = W3 m ρ c (Proc.devRef .tc main_v1) := by
  show StableHlo.after hostOps2 (W3 m ρ c) (Proc.devRef .tc main_v1) = _
  after_results_simp
theorem w4_keep_v4 : W4 m ρ c (Proc.devRef .tc main_v4) = W3 m ρ c (Proc.devRef .tc main_v4) := by
  show StableHlo.after hostOps2 (W3 m ρ c) (Proc.devRef .tc main_v4) = _
  after_results_simp

theorem v4_v6 (hs : Take.SrcOk (src m c)) : V4 m ρ c main_v6 = Cert.Stages.gath (F := Ideal) (node0 m c) (src m c) := by
  have h : W4 m ρ c (Proc.devRef .tc main_v6) = Take.ktake (F := Ideal) (W3 m ρ c (Proc.devRef .tc main_v4)) (W3 m ρ c (Proc.devRef .tc main_v1)) := by
    show StableHlo.after hostOps2 (W3 m ρ c) (Proc.devRef .tc main_v6) = _
    after_results_simp
    unfold Take.ktake Take.wrapped
    simp only [TRef.toBuf, TRef.ofBuf, cast_eq]
  refine h.trans ?_
  rw [w3_v4 m ρ c, w3_v1 m ρ c]
  exact Take.ktake_eq _ _ hs
theorem v4_v5 : V4 m ρ c main_v5 = edge m c := (w4_keep_v5 m ρ c).trans (w3_v5 m ρ c)

/-! ## Region 2: the first round's messages -/
theorem w5_v7 (hs : Take.SrcOk (src m c)) :
    W5 m ρ c (Proc.devRef .tc main_v7) = Cert.Stages.emul (F := Ideal) (Cert.Stages.gath (F := Ideal) (node0 m c) (src m c)) (edge m c) := by
  refine (W5_arr m ρ c 2).trans ((Cert.KernelIdeal.Region2.arr (V4 m ρ) c).trans ?_)
  rw [v4_v6 m ρ c hs, v4_v5 m ρ c]
theorem w5_v5 : W5 m ρ c (Proc.devRef .tc main_v5) = edge m c :=
  ((W5_arr m ρ c 1).trans (((dat2 (V4 m ρ) c).arrAt_in 1 rfl _).trans (A_eq2 (V4 m ρ) c 1))).trans (v4_v5 m ρ c)
theorem w5_v3 : W5 m ρ c (Proc.devRef .tc main_v3) = dst m c :=
  (W5_of_ne m ρ c main_v3 (by decide)).trans ((w4_keep_v3 m ρ c).trans (w3_v3 m ρ c))
theorem w5_v1 : W5 m ρ c (Proc.devRef .tc main_v1) = src m c :=
  (W5_of_ne m ρ c main_v1 (by decide)).trans ((w4_keep_v1 m ρ c).trans (w3_v1 m ρ c))
theorem w5_v4 : W5 m ρ c (Proc.devRef .tc main_v4) = node0 m c :=
  (W5_of_ne m ρ c main_v4 (by decide)).trans ((w4_keep_v4 m ρ c).trans (w3_v4 m ρ c))

/-! ## The first scatter-add -/
theorem w6_keep_v4 : W6 m ρ c (Proc.devRef .tc main_v4) = W5 m ρ c (Proc.devRef .tc main_v4) := by
  show StableHlo.after hostOps3 (W5 m ρ c) (Proc.devRef .tc main_v4) = _
  after_results_simp
theorem w6_keep_v1 : W6 m ρ c (Proc.devRef .tc main_v1) = W5 m ρ c (Proc.devRef .tc main_v1) := by
  show StableHlo.after hostOps3 (W5 m ρ c) (Proc.devRef .tc main_v1) = _
  after_results_simp
theorem w6_keep_v3 : W6 m ρ c (Proc.devRef .tc main_v3) = W5 m ρ c (Proc.devRef .tc main_v3) := by
  show StableHlo.after hostOps3 (W5 m ρ c) (Proc.devRef .tc main_v3) = _
  after_results_simp
theorem w6_keep_v5 : W6 m ρ c (Proc.devRef .tc main_v5) = W5 m ρ c (Proc.devRef .tc main_v5) := by
  show StableHlo.after hostOps3 (W5 m ρ c) (Proc.devRef .tc main_v5) = _
  after_results_simp

theorem v6_v10 (hs : Take.SrcOk (src m c)) : V6 m ρ c main_v10
    = Cert.Stages.agg (F := Ideal) (dst m c) (Cert.Stages.emul (F := Ideal) (Cert.Stages.gath (F := Ideal) (node0 m c) (src m c)) (edge m c)) := by
  have h : W6 m ρ c (Proc.devRef .tc main_v10) = Cert.Stages.agg (F := Ideal) (W5 m ρ c (Proc.devRef .tc main_v3)) (W5 m ρ c (Proc.devRef .tc main_v7)) := by
    show StableHlo.after hostOps3 (W5 m ρ c) (Proc.devRef .tc main_v10) = _
    after_results_simp
    rfl
  refine h.trans ?_
  rw [w5_v3 m ρ c, w5_v7 m ρ c hs]
theorem v6_v4 : V6 m ρ c main_v4 = node0 m c := (w6_keep_v4 m ρ c).trans (w5_v4 m ρ c)

/-! ## Region 3: the first residual update -/
theorem w7_v11 (hs : Take.SrcOk (src m c)) : W7 m ρ c (Proc.devRef .tc main_v11) = node1 m c := by
  refine (W7_arr m ρ c 2).trans ((Cert.KernelIdeal.Region3.arr (V6 m ρ) c).trans ?_)
  rw [v6_v4 m ρ c, v6_v10 m ρ c hs]
  rfl
theorem w7_v1 : W7 m ρ c (Proc.devRef .tc main_v1) = src m c :=
  (W7_of_ne m ρ c main_v1 (by decide)).trans ((w6_keep_v1 m ρ c).trans (w5_v1 m ρ c))
theorem w7_v3 : W7 m ρ c (Proc.devRef .tc main_v3) = dst m c :=
  (W7_of_ne m ρ c main_v3 (by decide)).trans ((w6_keep_v3 m ρ c).trans (w5_v3 m ρ c))
theorem w7_v5 : W7 m ρ c (Proc.devRef .tc main_v5) = edge m c :=
  (W7_of_ne m ρ c main_v5 (by decide)).trans ((w6_keep_v5 m ρ c).trans (w5_v5 m ρ c))

/-! ## The second gather -/
theorem w8_keep_v5 : W8 m ρ c (Proc.devRef .tc main_v5) = W7 m ρ c (Proc.devRef .tc main_v5) := by
  show StableHlo.after hostOps4 (W7 m ρ c) (Proc.devRef .tc main_v5) = _
  after_results_simp
theorem w8_keep_v3 : W8 m ρ c (Proc.devRef .tc main_v3) = W7 m ρ c (Proc.devRef .tc main_v3) := by
  show StableHlo.after hostOps4 (W7 m ρ c) (Proc.devRef .tc main_v3) = _
  after_results_simp
theorem w8_keep_v11 : W8 m ρ c (Proc.devRef .tc main_v11) = W7 m ρ c (Proc.devRef .tc main_v11) := by
  show StableHlo.after hostOps4 (W7 m ρ c) (Proc.devRef .tc main_v11) = _
  after_results_simp

theorem v8_v12 (hs : Take.SrcOk (src m c)) : V8 m ρ c main_v12 = Cert.Stages.gath (F := Ideal) (node1 m c) (src m c) := by
  have h : W8 m ρ c (Proc.devRef .tc main_v12) = Take.ktake (F := Ideal) (W7 m ρ c (Proc.devRef .tc main_v11)) (W7 m ρ c (Proc.devRef .tc main_v1)) := by
    show StableHlo.after hostOps4 (W7 m ρ c) (Proc.devRef .tc main_v12) = _
    after_results_simp
    unfold Take.ktake Take.wrapped
    simp only [TRef.toBuf, TRef.ofBuf, cast_eq]
  refine h.trans ?_
  rw [w7_v11 m ρ c hs, w7_v1 m ρ c]
  exact Take.ktake_eq _ _ hs
theorem v8_v5 : V8 m ρ c main_v5 = edge m c := (w8_keep_v5 m ρ c).trans (w7_v5 m ρ c)

/-! ## Region 4: the second round's messages -/
theorem w9_v13 (hs : Take.SrcOk (src m c)) :
    W9 m ρ c (Proc.devRef .tc main_v13) = Cert.Stages.emul (F := Ideal) (Cert.Stages.gath (F := Ideal) (node1 m c) (src m c)) (edge m c) := by
  refine (W9_arr m ρ c 2).trans ((Cert.KernelIdeal.Region4.arr (V8 m ρ) c).trans ?_)
  rw [v8_v12 m ρ c hs, v8_v5 m ρ c]
theorem w9_v3 : W9 m ρ c (Proc.devRef .tc main_v3) = dst m c :=
  (W9_of_ne m ρ c main_v3 (by decide)).trans ((w8_keep_v3 m ρ c).trans (w7_v3 m ρ c))
theorem w9_v11 (hs : Take.SrcOk (src m c)) : W9 m ρ c (Proc.devRef .tc main_v11) = node1 m c :=
  (W9_of_ne m ρ c main_v11 (by decide)).trans ((w8_keep_v11 m ρ c).trans (w7_v11 m ρ c hs))

/-! ## The second scatter-add -/
theorem w10_keep_v11 : W10 m ρ c (Proc.devRef .tc main_v11) = W9 m ρ c (Proc.devRef .tc main_v11) := by
  show StableHlo.after hostOps5 (W9 m ρ c) (Proc.devRef .tc main_v11) = _
  after_results_simp

theorem v10_v16 (hs : Take.SrcOk (src m c)) : V10 m ρ c main_v16
    = Cert.Stages.agg (F := Ideal) (dst m c) (Cert.Stages.emul (F := Ideal) (Cert.Stages.gath (F := Ideal) (node1 m c) (src m c)) (edge m c)) := by
  have h : W10 m ρ c (Proc.devRef .tc main_v16) = Cert.Stages.agg (F := Ideal) (W9 m ρ c (Proc.devRef .tc main_v3)) (W9 m ρ c (Proc.devRef .tc main_v13)) := by
    show StableHlo.after hostOps5 (W9 m ρ c) (Proc.devRef .tc main_v16) = _
    after_results_simp
    rfl
  refine h.trans ?_
  rw [w9_v3 m ρ c, w9_v13 m ρ c hs]
theorem v10_v11 (hs : Take.SrcOk (src m c)) : V10 m ρ c main_v11 = node1 m c := (w10_keep_v11 m ρ c).trans (w9_v11 m ρ c hs)

/-! ## Region 5: the second residual update -/
theorem v11_v17 (hs : Take.SrcOk (src m c)) : V11 m ρ c main_v17 = node2 m c := by
  refine (W11_arr m ρ c 2).trans ((Cert.KernelIdeal.Region5.arr (V10 m ρ) c).trans ?_)
  rw [v10_v11 m ρ c hs, v10_v16 m ρ c hs]
  rfl

/-! ## Region 6: the perceptron, its weights as launched -/
theorem w13_keep_arg8 : W13 m ρ c (Proc.devRef .tc main_arg8) = W12 m ρ c (Proc.devRef .tc main_arg8) := by
  show StableHlo.after hostOps7 (W12 m ρ c) (Proc.devRef .tc main_arg8) = _
  after_results_simp
theorem w13_keep_arg9 : W13 m ρ c (Proc.devRef .tc main_arg9) = W12 m ρ c (Proc.devRef .tc main_arg9) := by
  show StableHlo.after hostOps7 (W12 m ρ c) (Proc.devRef .tc main_arg9) = _
  after_results_simp
theorem w13_keep_arg10 : W13 m ρ c (Proc.devRef .tc main_arg10) = W12 m ρ c (Proc.devRef .tc main_arg10) := by
  show StableHlo.after hostOps7 (W12 m ρ c) (Proc.devRef .tc main_arg10) = _
  after_results_simp
theorem w13_keep_arg11 : W13 m ρ c (Proc.devRef .tc main_arg11) = W12 m ρ c (Proc.devRef .tc main_arg11) := by
  show StableHlo.after hostOps7 (W12 m ρ c) (Proc.devRef .tc main_arg11) = _
  after_results_simp
theorem w13_keep_arg12 : W13 m ρ c (Proc.devRef .tc main_arg12) = W12 m ρ c (Proc.devRef .tc main_arg12) := by
  show StableHlo.after hostOps7 (W12 m ρ c) (Proc.devRef .tc main_arg12) = _
  after_results_simp
theorem w13_keep_arg3 : W13 m ρ c (Proc.devRef .tc main_arg3) = W12 m ρ c (Proc.devRef .tc main_arg3) := by
  show StableHlo.after hostOps7 (W12 m ρ c) (Proc.devRef .tc main_arg3) = _
  after_results_simp
theorem v11_arg8 : V11 m ρ c main_arg8 = m ((c.tc : Thread nD τ).loc main_arg8) :=
  (((W12_arr m ρ c 1).trans (((dat6 (V11 m ρ) c).arrAt_in 1 rfl _).trans (A_eq6 (V11 m ρ) c 1))).symm.trans
    ((w13_keep_arg8 m ρ c).symm.trans (W13_main_arg8 m ρ c)))
theorem v11_arg9 : V11 m ρ c main_arg9 = m ((c.tc : Thread nD τ).loc main_arg9) :=
  (((W12_arr m ρ c 2).trans (((dat6 (V11 m ρ) c).arrAt_in 2 rfl _).trans (A_eq6 (V11 m ρ) c 2))).symm.trans
    ((w13_keep_arg9 m ρ c).symm.trans (W13_main_arg9 m ρ c)))
theorem v11_arg10 : V11 m ρ c main_arg10 = m ((c.tc : Thread nD τ).loc main_arg10) :=
  (((W12_arr m ρ c 3).trans (((dat6 (V11 m ρ) c).arrAt_in 3 rfl _).trans (A_eq6 (V11 m ρ) c 3))).symm.trans
    ((w13_keep_arg10 m ρ c).symm.trans (W13_main_arg10 m ρ c)))
theorem v11_arg11 : V11 m ρ c main_arg11 = m ((c.tc : Thread nD τ).loc main_arg11) :=
  (((W12_arr m ρ c 4).trans (((dat6 (V11 m ρ) c).arrAt_in 4 rfl _).trans (A_eq6 (V11 m ρ) c 4))).symm.trans
    ((w13_keep_arg11 m ρ c).symm.trans (W13_main_arg11 m ρ c)))
theorem v11_arg12 : V11 m ρ c main_arg12 = m ((c.tc : Thread nD τ).loc main_arg12) :=
  (((W12_arr m ρ c 5).trans (((dat6 (V11 m ρ) c).arrAt_in 5 rfl _).trans (A_eq6 (V11 m ρ) c 5))).symm.trans
    ((w13_keep_arg12 m ρ c).symm.trans (W13_main_arg12 m ρ c)))

theorem w12_v18 (hs : Take.SrcOk (src m c)) : W12 m ρ c (Proc.devRef .tc main_v18)
    = Cert.Stages.mlp (F := Ideal) (node2 m c) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W12_arr m ρ c 6).trans ((Cert.KernelIdeal.Region6.arr (V11 m ρ) c).trans ?_)
  rw [v11_v17 m ρ c hs, v11_arg8 m ρ c, v11_arg9 m ρ c, v11_arg10 m ρ c, v11_arg11 m ρ c, v11_arg12 m ρ c]
theorem w12_arg3 : W12 m ρ c (Proc.devRef .tc main_arg3) = m ((c.tc : Thread nD τ).loc main_arg3) :=
  (w13_keep_arg3 m ρ c).symm.trans (W13_main_arg3 m ρ c)

/-! ## The sum per graph, and the whole -/
theorem result (hs : Take.SrcOk (src m c)) : W13 m ρ c (Proc.devRef .tc main_v21)
    = Cert.Stages.total (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have h : W13 m ρ c (Proc.devRef .tc main_v21) = Cert.Stages.pool (F := Ideal) (W12 m ρ c (Proc.devRef .tc main_arg3)) (W12 m ρ c (Proc.devRef .tc main_v18)) := by
    show StableHlo.after hostOps7 (W12 m ρ c) (Proc.devRef .tc main_v21) = _
    after_results_simp
    rfl
  refine h.trans ?_
  rw [w12_arg3 m ρ c, w12_v18 m ρ c hs]
  rfl

end Cert.KernelIdeal.Fold

end
-- ==== Proof.PreSrc.lean ====
/-
  The precondition's last conjunct, read back: every entry of row 0 of the edge list (the source node
  of every edge) is a node index, 0 ≤ s < 50000 as signed 32-bit integers.
-/
import proofs.«414585_j1666447311389_1_alg».proof.Defs
import proofs.«414585_j1666447311389_1_alg».proof.Proof.Gen.Pre_finite_inputs
import proofs.«414585_j1666447311389_1_alg».proof.Proof.Stages
import proofs.«414585_j1666447311389_1_alg».proof.Proof.Take
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic
import Idealize.ShloMosaic.Lib.ReduceAll
import Idealize.ShloMosaic.Lib.StableHlo.Predicate

noncomputable section

namespace Cert.KernelIdeal.Take

open Cert.KernelIdeal Idealize.ShloMosaic Idealize.ShloMosaic.TcCoe Idealize.SL.Sem

/-- The last part of the printed precondition, all ones, says every source index is a node index: its result is a
    conjunction whose second member is the "and" over all edges of (0 ≤ s) ∧ (s < 50000), and an "and" over all
    edges that is one is one at every edge. The source row is spelled there with the predicate's own side
    conditions; those are proofs, so it is the same row. -/
theorem srcOk_of_last_part (a2 : IVec S2x500000 32) (v48 : IVec S_ 1) (v49 v50 : FVec Ideal S1x64 .f32)
    (h : Cert.Pre_finite_inputs.fn_part3 (F := Ideal) a2 v48 v49 v50 ValueIdx.ix0 = 1#1) :
    SrcOk (Cert.Stages.srcOf a2) := by
  unfold Cert.Pre_finite_inputs.fn_part3 at h
  dsimp only at h
  have hall := (IntOp.andi_eq_one.1 h).2
  haveI : Subsingleton Cert.Pre_finite_inputs.S_.Idx := ⟨fun a b => funext fun d => d.elim0⟩
  intro e
  have he := Host.reduce_andi_all _ _ _ _ _ hall e
  obtain ⟨hge, hlt⟩ := IntOp.andi_eq_one.1 he
  exact ⟨hge, hlt⟩

/-- The precondition's last conjunct says every source index is a node index. -/
theorem srcOk_of_pre (m : (ℓ : Loc nD τ sig) → Buf (Elt Ideal) ℓ) (hpre : Cert.Pre_KernelIdeal m) (c : Dev nD) :
    SrcOk (Cert.Stages.srcOf (m ((c.tc : Thread nD τ).loc main_arg2))) := by
  have h := congrFun (hpre c) ValueIdx.ix0
  exact srcOk_of_last_part (m ((c.tc : Thread nD τ).loc main_arg2)) _ _ _ h

end Cert.KernelIdeal.Take

end
-- ==== Proof.RefSide.lean ====
/-
  The reference program's run, restated: its result is the composition `Cert.Stages.total` of the thirteen
  arguments (the stage functions are the reference's own host operations, grouped), the arguments unchanged.
-/
import proofs.«414585_j1666447311389_1_alg».proof.Proof.Gen.ReferenceIdeal.Run
import proofs.«414585_j1666447311389_1_alg».proof.Proof.Gen.ReferenceIdeal.Read
import proofs.«414585_j1666447311389_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

namespace Cert.ReferenceIdeal.Hand

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

open Cert.ReferenceIdeal.Read

/-- Row 0 of the edge list, as the reference computes it, is the source row. -/
theorem src_eq (x2 : IVec S2x500000 32) : val_main_v1 (F := Ideal) x2 = Cert.Stages.srcOf x2 := by
  unfold val_main_v1 val_main_v0 Cert.Stages.srcOf
  rfl

/-- Row 1 of the edge list is the destination row. -/
theorem dst_eq (x2 : IVec S2x500000 32) : val_main_v3 (F := Ideal) x2 = Cert.Stages.dstOf x2 := by
  unfold val_main_v3 val_main_v2 Cert.Stages.dstOf
  rfl

/-- The node embedding. -/
theorem node_eq (x0 : FVec Ideal S50000x128 .f32) (x4 : FVec Ideal S128x128 .f32) (x5 : FVec Ideal S128 .f32) : val_main_v8 (F := Ideal) x0 x4 x5 = Cert.Stages.lin0 (F := Ideal) x0 x4 x5 := by
  unfold val_main_v8 val_main_v5 val_main_v4 val_main_v7 val_main_v6 Cert.Stages.lin0
  rfl

/-- The edge embedding. -/
theorem edge_eq (x1 : FVec Ideal S500000x64 .f32) (x6 : FVec Ideal S128x64 .f32) (x7 : FVec Ideal S128 .f32) : val_main_v13 (F := Ideal) x1 x6 x7 = Cert.Stages.lin1 (F := Ideal) x1 x6 x7 := by
  unfold val_main_v13 val_main_v10 val_main_v9 val_main_v12 val_main_v11 Cert.Stages.lin1
  rfl

/-- The wrapped source column of the first round. -/
theorem wrap1_eq (x2 : IVec S2x500000 32) : val_main_v19 (F := Ideal) x2 = Cert.Stages.wrapIdx (Cert.Stages.srcOf x2) := by
  unfold val_main_v19 val_main_v18 val_main_v15 val_main_v17 val_main_v14 val_main_v16 val_main_c val_main_c_0
  rw [src_eq]
  unfold Cert.Stages.wrapIdx
  rfl

/-- The wrapped source column of the second round. -/
theorem wrap2_eq (x2 : IVec S2x500000 32) : val_main_v31 (F := Ideal) x2 = Cert.Stages.wrapIdx (Cert.Stages.srcOf x2) := by
  unfold val_main_v31 val_main_v30 val_main_v27 val_main_v29 val_main_v26 val_main_v28 val_main_c_1 val_main_c_2
  rw [src_eq]
  unfold Cert.Stages.wrapIdx
  rfl

/-- The first round of message passing. -/
theorem round1_eq (x0 : FVec Ideal S50000x128 .f32) (x1 : FVec Ideal S500000x64 .f32) (x2 : IVec S2x500000 32) (x4 : FVec Ideal S128x128 .f32) (x5 : FVec Ideal S128 .f32) (x6 : FVec Ideal S128x64 .f32) (x7 : FVec Ideal S128 .f32) :
    val_main_v25 (F := Ideal) x0 x1 x2 x4 x5 x6 x7
      = Cert.Stages.layer (F := Ideal) (Cert.Stages.lin0 (F := Ideal) x0 x4 x5) (Cert.Stages.lin1 (F := Ideal) x1 x6 x7) (Cert.Stages.srcOf x2) (Cert.Stages.dstOf x2) := by
  unfold val_main_v25 val_main_v24 val_main_v21 val_main_v20 val_main_v22 val_main_v23 val_main_cst
  rw [node_eq, edge_eq, wrap1_eq, dst_eq]
  unfold Cert.Stages.layer Cert.Stages.nadd Cert.Stages.agg Cert.Stages.emul Cert.Stages.gath
  rfl

/-- The second round of message passing, on the first round's result. -/
theorem round2_eq (x0 : FVec Ideal S50000x128 .f32) (x1 : FVec Ideal S500000x64 .f32) (x2 : IVec S2x500000 32) (x4 : FVec Ideal S128x128 .f32) (x5 : FVec Ideal S128 .f32) (x6 : FVec Ideal S128x64 .f32) (x7 : FVec Ideal S128 .f32) :
    val_main_v37 (F := Ideal) x0 x1 x2 x4 x5 x6 x7
      = Cert.Stages.layer (F := Ideal) (val_main_v25 (F := Ideal) x0 x1 x2 x4 x5 x6 x7) (Cert.Stages.lin1 (F := Ideal) x1 x6 x7) (Cert.Stages.srcOf x2) (Cert.Stages.dstOf x2) := by
  unfold val_main_v37 val_main_v36 val_main_v33 val_main_v32 val_main_v34 val_main_v35 val_main_cst_3
  rw [edge_eq, wrap2_eq, dst_eq]
  unfold Cert.Stages.layer Cert.Stages.nadd Cert.Stages.agg Cert.Stages.emul Cert.Stages.gath
  rfl

/-- The energy perceptron on the second round's result. -/
theorem mlp_eq (x0 : FVec Ideal S50000x128 .f32) (x1 : FVec Ideal S500000x64 .f32) (x2 : IVec S2x500000 32) (x4 : FVec Ideal S128x128 .f32) (x5 : FVec Ideal S128 .f32) (x6 : FVec Ideal S128x64 .f32) (x7 : FVec Ideal S128 .f32) (x8 : FVec Ideal S128x128 .f32) (x9 : FVec Ideal S128 .f32) (x10 : FVec Ideal S64x128 .f32) (x11 : FVec Ideal S64 .f32) (x12 : FVec Ideal S1x64 .f32) :
    val_main_v52 (F := Ideal) x0 x1 x2 x4 x5 x6 x7 x8 x9 x10 x11 x12
      = Cert.Stages.mlp (F := Ideal) (val_main_v37 (F := Ideal) x0 x1 x2 x4 x5 x6 x7) x8 x9 x10 x11 x12 := by
  unfold val_main_v52 val_main_v51 val_main_v50 val_main_call2_v0 val_main_call2_cst val_main_v49 val_main_v48 val_main_v47
    val_main_v46 val_main_v45 val_main_v44 val_main_call1_v0 val_main_call1_cst val_main_v43 val_main_v42 val_main_v41
    val_main_v40 val_main_v39 val_main_v38 val_main_call0_v0 val_main_call0_cst
    Cert.Stages.mlp Cert.Stages.relu64 Cert.Stages.relu128
  rfl

/-- The whole reference as the composition of the stages. -/
theorem total_eq (x0 : FVec Ideal S50000x128 .f32) (x1 : FVec Ideal S500000x64 .f32) (x2 : IVec S2x500000 32) (x3 : IVec S50000 32) (x4 : FVec Ideal S128x128 .f32) (x5 : FVec Ideal S128 .f32) (x6 : FVec Ideal S128x64 .f32) (x7 : FVec Ideal S128 .f32) (x8 : FVec Ideal S128x128 .f32) (x9 : FVec Ideal S128 .f32) (x10 : FVec Ideal S64x128 .f32) (x11 : FVec Ideal S64 .f32) (x12 : FVec Ideal S1x64 .f32) :
    val_main_v55 (F := Ideal) x0 x1 x2 x3 x4 x5 x6 x7 x8 x9 x10 x11 x12
      = Cert.Stages.total (F := Ideal) x0 x1 x2 x3 x4 x5 x6 x7 x8 x9 x10 x11 x12 := by
  unfold val_main_v55 val_main_v53 val_main_v54 val_main_cst_4
  rw [mlp_eq, round2_eq, round1_eq]
  unfold Cert.Stages.total Cert.Stages.pool
  rfl

/-- The reference's result term is the composition of the stage functions. -/
theorem res_eq (c : Dev nD) :
    Cert.ReferenceIdeal.Value.res_main_v55 (F := Ideal) m c
      = Cert.Stages.total (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [val_main_v55_eq]
  exact total_eq _ _ _ _ _ _ _ _ _ _ _ _ _

/-- Every weakly fair execution of the reference terminates with its result at `Cert.Stages.total` of the arguments
    and the arguments unchanged. -/
theorem run : θ_run defs (onTc (τ := τ) (main (F := Ideal))) ⟨m, fun _ => 0, ρ⟩ fun r => ∀ c : Dev nD,
      r.2.mem ((c.tc : Thread nD τ).loc main_v55)
        = Cert.Stages.total (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (res_eq m c), (h c).2⟩) (Cert.ReferenceIdeal.Value.run (F := Ideal) m ρ)

end Cert.ReferenceIdeal.Hand

end
-- ==== Proof.lean ====
/-
  A graph network's energy: node and edge features are embedded by a linear layer each, two rounds of
  message passing add to every node the sum, over its incoming edges, of the source node's embedding
  times the edge's embedding, a three-layer perceptron with a rectifier before each layer gives every
  node an energy, and the energies are summed per graph.

  The kernel program computes the linear layers, the entrywise product and sum, and the perceptron in
  seven kernels over blocks of rows, and gathers and scatters between them on the host; the reference
  computes everything on the host. Over the extended reals the two are the same function of the
  thirteen arguments: every block of rows of a kernel's output is the same rows of the whole-array
  operation (a contraction of a row block against the whole weight is the rows of the whole
  contraction; a change of float format is the identity), so each kernel's output array is a stage
  function spelled with the reference's own operations, and the host operations between the kernels
  are the reference's. The one difference is the gather: the kernel's fills the rows of out-of-range
  source indices with a fill value where the reference clamps the index; under the precondition's
  last conjunct (every source index is a node index) nothing is filled and the two agree. No law of
  arithmetic beyond reindexing a finite sum is used, so the finiteness of the float inputs is not.

  The three frames: the two kernel programs' are the generated ones; the reference's is its run with
  the result dropped. The ideal pass rewrote nothing, so the idealization claim is trivial.
-/
import proofs.«414585_j1666447311389_1_alg».proof.Defs
import proofs.«414585_j1666447311389_1_alg».proof.Proof.Gen.Kernel
import proofs.«414585_j1666447311389_1_alg».proof.Proof.Gen.Kernel.Skeleton
import proofs.«414585_j1666447311389_1_alg».proof.Proof.Gen.Kernel.Launch
import proofs.«414585_j1666447311389_1_alg».proof.Proof.Gen.Kernel.Points
import proofs.«414585_j1666447311389_1_alg».proof.Proof.Gen.Kernel.Frame
import proofs.«414585_j1666447311389_1_alg».proof.Proof.Gen.KernelIdeal
import proofs.«414585_j1666447311389_1_alg».proof.Proof.Gen.KernelIdeal.Skeleton
import proofs.«414585_j1666447311389_1_alg».proof.Proof.Gen.KernelIdeal.Launch
import proofs.«414585_j1666447311389_1_alg».proof.Proof.Gen.KernelIdeal.Points
import proofs.«414585_j1666447311389_1_alg».proof.Proof.Gen.KernelIdeal.Frame
import proofs.«414585_j1666447311389_1_alg».proof.Proof.Gen.ReferenceIdeal
import proofs.«414585_j1666447311389_1_alg».proof.Proof.Gen.Pre_finite_inputs
import proofs.«414585_j1666447311389_1_alg».proof.Proof.Gen.ReferenceIdeal.Run
import proofs.«414585_j1666447311389_1_alg».proof.Proof.Gen.ReferenceIdeal.Read
import proofs.«414585_j1666447311389_1_alg».proof.Proof.KernelRun
import proofs.«414585_j1666447311389_1_alg».proof.Proof.Fold
import proofs.«414585_j1666447311389_1_alg».proof.Proof.PreSrc
import proofs.«414585_j1666447311389_1_alg».proof.Proof.RefSide
import Idealize.ShloMosaic.Adequacy
import Idealize.ShloMosaic.Init

noncomputable section

namespace Cert.Proof

open Idealize.ShloMosaic Idealize.SL.Sem

/-- Both idealized programs, run from memories that agree on the arguments, end with the result array at
    `Cert.Stages.total` of the arguments: the kernel program by reading its segments back (the source indices
    in range by the precondition), the reference by its run. -/
theorem algebraic : Cert.algebraic_KernelIdeal_ReferenceIdeal := by
  intro m ρ m' ρ' hpre hagree
  refine ⟨fun c => Cert.Stages.total (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.result m ρ c (Cert.KernelIdeal.Take.srcOk_of_pre m hpre c)), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Hand.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
